-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S65536 : Shape := ⟨1, ![65536]⟩
abbrev S512 : Shape := ⟨1, ![512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S65536x512 .f32) (main_arg1 : IVec S65536 1) (main_arg2 : FVec F S512 .f32) (main_arg3 : FVec F S512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S512 .f32 := Host.absf main_arg2
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S65536x512 : Shape := ⟨2, ![65536, 512]⟩
abbrev S65536 : Shape := ⟨1, ![65536]⟩
abbrev S512 : Shape := ⟨1, ![512]⟩
abbrev S65536x1 : Shape := ⟨2, ![65536, 1]⟩
abbrev S1x512 : Shape := ⟨2, ![1, 512]⟩
abbrev S1024x512 : Shape := ⟨2, ![1024, 512]⟩
abbrev S1024x1 : Shape := ⟨2, ![1024, 1]⟩

abbrev nBuf : Space → Nat
  | .hbm => 9
  | .vmem => 13
  | .smem => 0
  | _ => 0

abbrev bufTy : (tb : Table) → Fin (tcTables nBuf tb) → BufTy
  | .hbm, ⟨0, _⟩ => ⟨S65536x512, .f32⟩
  | .hbm, ⟨1, _⟩ => ⟨S65536, .i1⟩
  | .hbm, ⟨2, _⟩ => ⟨S512, .f32⟩
  | .hbm, ⟨3, _⟩ => ⟨S512, .f32⟩
  | .hbm, ⟨4, _⟩ => ⟨S65536, .f32⟩
  | .hbm, ⟨5, _⟩ => ⟨S65536x1, .f32⟩
  | .hbm, ⟨6, _⟩ => ⟨S1x512, .f32⟩
  | .hbm, ⟨7, _⟩ => ⟨S1x512, .f32⟩
  | .hbm, ⟨8, _⟩ => ⟨S65536x512, .f32⟩
  | .local _ .vmem, ⟨0, _⟩ => ⟨S1024x512, .f32⟩
  | .local _ .vmem, ⟨1, _⟩ => ⟨S1024x512, .f32⟩
  | .local _ .vmem, ⟨2, _⟩ => ⟨S1024x1, .f32⟩
  | .local _ .vmem, ⟨3, _⟩ => ⟨S1024x1, .f32⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 64], ![false, false]⟩

def k0_cond4 (i : grid0.Coords) : BitVec 1 :=
  let arg0 : BitVec 32 := BitVec.ofNat 32 (i 0).val
  let c1_i32_6 : BitVec 32 := 1#32
  let v13 : BitVec 1 := Scalar.cmpi .eq arg0 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S65536_S65536x1 : S65536.ShapeCasts S65536x1
  shapeCasts_S512_S1x512 : S512.ShapeCasts S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1024x512_S1024x512_0_0 : ∀ a, (![0, 0] : Fin 2 → Nat) a + S1024x512.size a ≤ S1024x512.size a
  h_S1024x512 : 0 < S1024x512.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x512 : S1024x1.Broadcasts S1024x512
  reduces_S1024x512_S512 : S1024x512.Reduces [0] S512
  broadcasts_S1x512_S1024x512 : S1x512.Broadcasts S1024x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .f32 = 32 ∨ (Rect.block (s := S65536x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S65536x1.size a
  hwx0_1 : ∀ i : grid0.Coords, EltTy.bits .f32 = 32 ∨ (Rect.block (s := S65536x1) S1024x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S65536x512.size a
  hwx0_4 : ∀ i : grid0.Coords, EltTy.bits .f32 = 32 ∨ (Rect.block (s := S65536x512) S1024x512.size (cc0_transform_4 i) (hinb0_4 i)).WholeWords (EltTy.packing .f32)

variable [Facts₀]

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond4 i == 1#1) | ⟨_ + 5, h⟩ => absurd h (Nat.not_lt.2 (Nat.le_add_left _ _))

class Facts : Prop extends Facts₀ where

variable [Facts]
-- ==== ReferenceIdeal.lean ====
abbrev S65536x512 : Shape := ⟨2, ![65536, 512]⟩
abbrev S65536 : Shape := ⟨1, ![65536]⟩
abbrev S512 : Shape := ⟨1, ![512]⟩
abbrev S65536x1 : Shape := ⟨2, ![65536, 1]⟩
abbrev S_ : Shape := ⟨0, ![]⟩
abbrev S1x512 : Shape := ⟨2, ![1, 512]⟩

abbrev nBuf : Space → Nat
  | .hbm => 44
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536, .i1⟩
  | .hbm, ⟨2, _⟩ => ⟨S512, .f32⟩
  | .hbm, ⟨3, _⟩ => ⟨S512, .f32⟩
  | .hbm, ⟨4, _⟩ => ⟨S65536x1, .i1⟩
  | .hbm, ⟨5, _⟩ => ⟨S65536x1, .f32⟩
  | .hbm, ⟨6, _⟩ => ⟨S65536, .f32⟩
  | .hbm, ⟨7, _⟩ => ⟨S_, .f32⟩
  | .hbm, ⟨8, _⟩ => ⟨S_, .f32⟩
  | .hbm, ⟨9, _⟩ => ⟨S65536x512, .f32⟩
  | .hbm, ⟨10, _⟩ => ⟨S65536x512, .f32⟩
  | .hbm, ⟨11, _⟩ => ⟨S_, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S1x512, .f32⟩
  | .hbm, ⟨16, _⟩ => ⟨S65536x512, .f32⟩
  | .hbm, ⟨17, _⟩ => ⟨S65536x512, .f32⟩
  | .hbm, ⟨18, _⟩ => ⟨S65536x512, .f32⟩
  | .hbm, ⟨19, _⟩ => ⟨S65536x512, .f32⟩
  | .hbm, ⟨20, _⟩ => ⟨S65536x512, .f32⟩
  | .hbm, ⟨21, _⟩ => ⟨S_, .f32⟩
  | .hbm, ⟨22, _⟩ => ⟨S512, .f32⟩
  | .hbm, ⟨23, _⟩ => ⟨S512, .f32⟩
  | .hbm, ⟨24, _⟩ => ⟨S512, .f32⟩
  | .hbm, ⟨25, _⟩ => ⟨S1x512, .f32⟩
  | .hbm, ⟨26, _⟩ => ⟨S65536x512, .f32⟩
  | .hbm, ⟨27, _⟩ => ⟨S65536x512, .f32⟩
  | .hbm, ⟨28, _⟩ => ⟨S_, .f32⟩
  | .hbm, ⟨29, _⟩ => ⟨S512, .f32⟩
  | .hbm, ⟨30, _⟩ => ⟨S512, .f32⟩
  | .hbm, ⟨31, _⟩ => ⟨S512, .f32⟩
  | .hbm, ⟨32, _⟩ => ⟨S1x512, .f32⟩
  | .hbm, ⟨33, _⟩ => ⟨S65536x512, .f32⟩
  | .hbm, ⟨34, _⟩ => ⟨S65536x512, .f32⟩
  | .hbm, ⟨35, _⟩ => ⟨S1x512, .f32⟩
  | .hbm, ⟨36, _⟩ => ⟨S65536x512, .f32⟩
  | .hbm, ⟨37, _⟩ => ⟨S65536x512, .f32⟩
  | .hbm, ⟨38, _⟩ => ⟨S1x512, .f32⟩
  | .hbm, ⟨39, _⟩ => ⟨S65536x512, .f32⟩
  | .hbm, ⟨40, _⟩ => ⟨S65536x512, .f32⟩
  | .hbm, ⟨41, _⟩ => ⟨S65536x1, .i1⟩
  | .hbm, ⟨42, _⟩ => ⟨S65536x512, .i1⟩
  | .hbm, ⟨43, _⟩ => ⟨S65536x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_call0_v0 : Ref sig .tc := ⟨.hbm, 42, rfl⟩
abbrev main_v34 : Ref sig .tc := ⟨.hbm, 43, rfl⟩

abbrev nD : Nat := 1
abbrev τ : Topo := Topo.v7x

variable {F : FTy → Type} [FloatOps F]

class Facts₀ : Prop where
  bcast_S65536_S65536x1_0 : S65536.BroadcastsInDim S65536x1 (![0] : Fin 1 → Fin S65536x1.rank)
  reducesTo_S65536_S_d0 : S65536.ReducesTo [0] S_
  h_S_ : 0 < S_.numel
  bcast_S65536x1_S65536x512_0_1 : S65536x1.BroadcastsInDim S65536x512 (![0, 1] : Fin 2 → Fin S65536x512.rank)
  reducesTo_S65536x512_S512_d0 : S65536x512.ReducesTo [0] S512
  bcast_S_S512 : S_.BroadcastsInDim S512 (![] : Fin 0 → Fin S512.rank)
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)

variable [Facts₀]

class Facts : Prop extends Facts₀ where

variable [Facts]
-- ==== Proof.K.Conds.lean ====
/-
  The batch-norm body over its 2 × 64 grid (phase p, row block i; point t = 64·p + i): which of its four
  conditionals run at a point, where the output window is idle and where its block is written back, and
  the staging and scratch buffers the body is called with.
-/
import proofs.«177905_g2027224563999_cont_sun_m_333_2_alg».proof.Proof.Gen.Kernel.Frame
import proofs.«177905_g2027224563999_cont_sun_m_333_2_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The four conditionals, as functions of the grid coordinates -/

/-- "zero the accumulators": phase 0 and row block 0. -/
abbrev condInit (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- "accumulate this row block": phase 0. -/
abbrev condAcc (i : grid0.Coords) : Prop := (Scalar.cmpi .ne (Scalar.extui (Scalar.cmpi .eq (BitVec.ofNat 32 (i 0).val) 0#32)) 0#32) = 1#1
/-- "turn the accumulators into the affine coefficients": phase 1 and row block 0. -/
abbrev condFin (i : grid0.Coords) : Prop := (Scalar.cmpi .ne (Scalar.extui (Scalar.andi (Scalar.cmpi .eq (BitVec.ofNat 32 (i 0).val) 1#32) (Scalar.cmpi .eq (BitVec.ofNat 32 (i 1).val) 0#32))) 0#32) = 1#1
/-- "apply the affine map to this row block": phase 1. -/
abbrev condApply (i : grid0.Coords) : Prop := k0_cond4 i = 1#1

theorem condInit_iff : ∀ t : Fin cfg0.N, condInit (grid0.coords t) ↔ t.val = 0 :=
  (by decide +kernel : ∀ t : Fin grid0.N, condInit (grid0.coords t) ↔ t.val = 0)
theorem condAcc_iff : ∀ t : Fin cfg0.N, condAcc (grid0.coords t) ↔ t.val < 64 :=
  (by decide +kernel : ∀ t : Fin grid0.N, condAcc (grid0.coords t) ↔ t.val < 64)
theorem condFin_iff : ∀ t : Fin cfg0.N, condFin (grid0.coords t) ↔ t.val = 64 :=
  (by decide +kernel : ∀ t : Fin grid0.N, condFin (grid0.coords t) ↔ t.val = 64)
theorem condApply_iff : ∀ t : Fin cfg0.N, condApply (grid0.coords t) ↔ 64 ≤ t.val :=
  (by decide +kernel : ∀ t : Fin grid0.N, condApply (grid0.coords t) ↔ 64 ≤ t.val)

/-! ## Idle points and write-backs -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The output window is idle through phase 0 (nothing is stored into its buffer there), -/
theorem idle4_iff : ∀ t : Fin cfg0.N, cfg0.idle 4 (grid0.coords t) = true ↔ t.val < 64 :=
  (by decide +kernel : ∀ t : Fin grid0.N, cfg0.idle 4 (grid0.coords t) = true ↔ t.val < 64)
/-- and its block index p·i first moves after point 64: the block is written back at every point of phase 1
    and at none of phase 0. -/
theorem flush4_iff : ∀ t : Fin cfg0.N, (cfg0.win 4).flush t = true ↔ 64 ≤ t.val :=
  (by decide +kernel : ∀ t : Fin grid0.N, win0_4.flush t = true ↔ 64 ≤ t.val)

/-! ## The buffers the body is called with -/

abbrev ms0 (t : Fin cfg0.N) : Memref sig .tc .vmem S1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x512 .f32 := win0_4.stage (cfg0.slots t 4)
abbrev hs4 (t : Fin cfg0.N) : (ms4 t).IsWhole := hstage0_4 ((cfg0.slots t 4).cast nbuf0_4)
/-- The five scratch rows: the sum, the sum of squares, the count, and the two affine coefficients. -/
abbrev scS : Memref sig .tc .vmem S1x512 .f32 := Memref.whole cc0_scratch0
abbrev scQ : Memref sig .tc .vmem S1x512 .f32 := Memref.whole cc0_scratch1
abbrev scN : Memref sig .tc .vmem S1x512 .f32 := Memref.whole cc0_scratch2
abbrev scC : Memref sig .tc .vmem S1x512 .f32 := Memref.whole cc0_scratch3
abbrev scB : Memref sig .tc .vmem S1x512 .f32 := Memref.whole cc0_scratch4

/-- What the launch hands the region beside the windows: the five scratch rows at some contents and the
    generator register. -/
theorem PhiA_eq (c : Dev nD) :
    (Pipeline.ΦA spec0 c : sProp 𝕄)
      = iprop(iprop((∃ d, owns (c : Thread nD τ) scS fullShare d) ∗ (∃ d, owns (c : Thread nD τ) scQ fullShare d) ∗ (∃ d, owns (c : Thread nD τ) scN fullShare d) ∗ (∃ d, owns (c : Thread nD τ) scC fullShare d) ∗ (∃ d, owns (c : Thread nD τ) scB fullShare d)) ∗ (∃ r, prngReg c r)) := by
  unfold Pipeline.ΦA; rw [scopedRest0_eq]; simp only [scS, scQ, scN, scC, scB, owns_whole]; try rfl

end Cert.Kernel.Body

end
-- ==== Proof.K.RunA.lean ====
/-
  The body at the first point (phase 0, row block 0): the three accumulators are zeroed and then take the
  first row block's column sums; the output's buffer and the two coefficient rows are not touched.
-/
import proofs.«177905_g2027224563999_cont_sun_m_333_2_alg».proof.Proof.K.Conds

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At the first point the body runs, from the inputs' buffers at their blocks, the output's buffer at `xo` and every
    scratch row at anything, to the same with each accumulator row overwritten by the pieces found (last store first). -/
noncomputable def runA (c : Dev nD) (i : grid0.Coords) (arg2 : Memref sig .tc .vmem S1024x512 .f32) (harg2 : arg2.IsWhole) (arg3 : Memref sig .tc .vmem S1024x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (h0 : condInit i) (h1 : condAcc i) (h2 : ¬condFin i) (h3 : ¬condApply i)
    (x0 : Vec F S1024x512 .f32) (x1 : Vec F S1024x1 .f32) (x2 : Vec F S1x512 .f32) (x3 : Vec F S1x512 .f32) (xo : Vec F S1024x512 .f32) :
    Σ' (LS0 : List (View.Piece (Elt F) S1x512 .f32)), Σ' (LS1 : List (View.Piece (Elt F) S1x512 .f32)), { LS2 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ d, owns (c : Thread nD τ) arg10 fullShare d) ∗ (∃ d, owns (c : Thread nD τ) arg11 fullShare d)) -∗ K ⟨⟩))
          ⊢ wp frame (wpE (defs₀ (F := F)) Variants.none c none) E (cc0__bn_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__bn_kernel_eq_skeleton]; unfold cc0__bn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact h0 | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    isplitl [HS3]
    · iexists _, _; isplitr; swap; · iexact HS3
      ipureintro; rfl
    iexists _, _; isplitr; swap; · iexact HS4
    ipureintro; rfl

end Cert.Kernel.Body

end
-- ==== Proof.K.RunB.lean ====
/-
  The body at a later point of phase 0: each accumulator row, found at what the point before left, takes this
  row block's column sums on top; the output's buffer and the two coefficient rows are not touched.
-/
import proofs.«177905_g2027224563999_cont_sun_m_333_2_alg».proof.Proof.K.RunA

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def runB (c : Dev nD) (i : grid0.Coords) (arg2 : Memref sig .tc .vmem S1024x512 .f32) (harg2 : arg2.IsWhole) (arg3 : Memref sig .tc .vmem S1024x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (h0 : ¬condInit i) (h1 : condAcc i) (h2 : ¬condFin i) (h3 : ¬condApply i)
    (x0 : Vec F S1024x512 .f32) (x1 : Vec F S1024x1 .f32) (x2 : Vec F S1x512 .f32) (x3 : Vec F S1x512 .f32) (xo : Vec F S1024x512 .f32)
    (xs0 : Vec F S1x512 .f32) (xs1 : Vec F S1x512 .f32) (xs2 : Vec F S1x512 .f32) :
    Σ' (LS0 : List (View.Piece (Elt F) S1x512 .f32)), Σ' (LS1 : List (View.Piece (Elt F) S1x512 .f32)), { LS2 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs0 ∗ owns (c : Thread nD τ) arg8 fullShare xs1 ∗ owns (c : Thread nD τ) arg9 fullShare xs2 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ d, owns (c : Thread nD τ) arg10 fullShare d) ∗ (∃ d, owns (c : Thread nD τ) arg11 fullShare d)) -∗ K ⟨⟩))
          ⊢ wp frame (wpE (defs₀ (F := F)) Variants.none c none) E (cc0__bn_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__bn_kernel_eq_skeleton]; unfold cc0__bn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2
    sl_exec (disch := first | exact h0 | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    isplitl [HS3]
    · iexists _, _; isplitr; swap; · iexact HS3
      ipureintro; rfl
    iexists _, _; isplitr; swap; · iexact HS4
    ipureintro; rfl

end Cert.Kernel.Body

end
-- ==== Proof.K.RunC.lean ====
/-
  The body at the first point of phase 1: the accumulators, read only, give the two coefficient rows, and the
  first row block of the output is stored whole from them.
-/
import proofs.«177905_g2027224563999_cont_sun_m_333_2_alg».proof.Proof.K.RunB

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def runC (c : Dev nD) (i : grid0.Coords) (arg2 : Memref sig .tc .vmem S1024x512 .f32) (harg2 : arg2.IsWhole) (arg3 : Memref sig .tc .vmem S1024x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (h0 : ¬condInit i) (h1 : ¬condAcc i) (h2 : condFin i) (h3 : condApply i)
    (x0 : Vec F S1024x512 .f32) (x1 : Vec F S1024x1 .f32) (x2 : Vec F S1x512 .f32) (x3 : Vec F S1x512 .f32)
    (xs0 : Vec F S1x512 .f32) (xs1 : Vec F S1x512 .f32) (xs2 : Vec F S1x512 .f32) :
    Σ' (LO : List (View.Piece (Elt F) S1024x512 .f32)), Σ' (LS3 : List (View.Piece (Elt F) S1x512 .f32)), { LS4 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ owns (c : Thread nD τ) arg7 fullShare xs0 ∗ owns (c : Thread nD τ) arg8 fullShare xs1 ∗ owns (c : Thread nD τ) arg9 fullShare xs2 ∗ (∃ f, arg10.view.loc (c : Thread nD τ) ↦[arg10.view.set]{fullShare} arg10.view.writes (Elt F) f LS3) ∗ (∃ f, arg11.view.loc (c : Thread nD τ) ↦[arg11.view.set]{fullShare} arg11.view.writes (Elt F) f LS4)) -∗ K ⟨⟩))
          ⊢ wp frame (wpE (defs₀ (F := F)) Variants.none c none) E (cc0__bn_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__bn_kernel_eq_skeleton]; unfold cc0__bn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact h0 | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]
    · iexists _; isplitr; · ipureintro; exact harg7.read_unread _
      iexact HS0
    isplitl [HS1]
    · iexists _; isplitr; · ipureintro; exact harg8.read_unread _
      iexact HS1
    isplitl [HS2]
    · iexists _; isplitr; · ipureintro; exact harg9.read_unread _
      iexact HS2
    isplitl [HS3]; · iexists _; iexact HS3
    iexists _; iexact HS4

end Cert.Kernel.Body

end
-- ==== Proof.K.RunD.lean ====
/-
  The body at a later point of phase 1: the two coefficient rows, read only, and this row block of the input
  give this row block of the output, stored whole.
-/
import proofs.«177905_g2027224563999_cont_sun_m_333_2_alg».proof.Proof.K.RunC

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def runD (c : Dev nD) (i : grid0.Coords) (arg2 : Memref sig .tc .vmem S1024x512 .f32) (harg2 : arg2.IsWhole) (arg3 : Memref sig .tc .vmem S1024x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (h0 : ¬condInit i) (h1 : ¬condAcc i) (h2 : ¬condFin i) (h3 : condApply i)
    (x0 : Vec F S1024x512 .f32) (x1 : Vec F S1024x1 .f32) (x2 : Vec F S1x512 .f32) (x3 : Vec F S1x512 .f32)
    (xs0 : Vec F S1x512 .f32) (xs1 : Vec F S1x512 .f32) (xs2 : Vec F S1x512 .f32) (xs3 : Vec F S1x512 .f32) (xs4 : Vec F S1x512 .f32) :
    { LO : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2 ∗ owns (c : Thread nD τ) arg10 fullShare xs3 ∗ owns (c : Thread nD τ) arg11 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ owns (c : Thread nD τ) arg7 fullShare xs0 ∗ owns (c : Thread nD τ) arg8 fullShare xs1 ∗ owns (c : Thread nD τ) arg9 fullShare xs2 ∗ owns (c : Thread nD τ) arg10 fullShare xs3 ∗ owns (c : Thread nD τ) arg11 fullShare xs4) -∗ K ⟨⟩))
          ⊢ wp frame (wpE (defs₀ (F := F)) Variants.none c none) E (cc0__bn_kernel i arg2 harg2 arg3 harg3 arg4 harg4 arg5 harg5 arg6 harg6 arg7 harg7 arg8 harg8 arg9 harg9 arg10 harg10 arg11 harg11) K } := by
  refine ⟨?_, fun E K => ?run⟩
  case run =>
    simp only [cc0__bn_kernel_eq_skeleton]; unfold cc0__bn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    obtain rfl := harg10.eq_unread hfs3; obtain rfl := harg11.eq_unread hfs4
    sl_exec (disch := first | exact h0 | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]
    · iexists _; isplitr; · ipureintro; exact harg7.read_unread _
      iexact HS0
    isplitl [HS1]
    · iexists _; isplitr; · ipureintro; exact harg8.read_unread _
      iexact HS1
    isplitl [HS2]
    · iexists _; isplitr; · ipureintro; exact harg9.read_unread _
      iexact HS2
    isplitl [HS3]
    · iexists _; isplitr; · ipureintro; exact harg10.read_unread _
      iexact HS3
    iexists _; isplitr; · ipureintro; exact harg11.read_unread _
    iexact HS4

end Cert.Kernel.Body

end
-- ==== Proof.K.Pieces.lean ====
/-
  What each case of the body leaves in the rows it stores, as ONE value per row: every store of the body writes a whole
  row (or the whole output block) at offset zero, so the pieces a run finds cover the buffer and read back as the last
  store's payload; a row read back after a store in the same run (the zeroed accumulators at the first point, the two
  coefficient rows at the first point of phase 1) reads that store's payload.
-/
import proofs.«177905_g2027224563999_cont_sun_m_333_2_alg».proof.Proof.K.RunD
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Every store of the body is at offset zero. -/
theorem offZero : (![0, 0] : Fin 2 → ℕ) = fun _ => 0 := by
  funext a; match a with | ⟨0, _⟩ => rfl | ⟨1, _⟩ => rfl

section
variable (c : Dev nD) (i : grid0.Coords) (arg2 : Memref sig .tc .vmem S1024x512 .f32) (harg2 : arg2.IsWhole) (arg3 : Memref sig .tc .vmem S1024x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole)
variable (x0 : Vec F S1024x512 .f32) (x1 : Vec F S1024x1 .f32) (x2 : Vec F S1x512 .f32) (x3 : Vec F S1x512 .f32) (xo : Vec F S1024x512 .f32)
  (xs0 xs1 xs2 xs3 xs4 : Vec F S1x512 .f32)

/-! ### The first point -/
section A
variable (h0 : condInit i) (h1 : condAcc i) (h2 : ¬condFin i) (h3 : ¬condApply i)

theorem coverA0 (y : S1x512.Idx) : ∃ pc ∈ (runA c i arg2 harg2 arg3 harg3 arg4 harg4 arg5 harg5 arg6 harg6 arg7 harg7 arg8 harg8 arg9 harg9 arg10 harg10 arg11 harg11 h0 h1 h2 h3 x0 x1 x2 x3 xo).1, y ∈ pc.1.set :=
  View.cover_of_tiledL _ S1x512.size (by sl_kernel_rfl) y
theorem coverA1 (y : S1x512.Idx) : ∃ pc ∈ (runA c i arg2 harg2 arg3 harg3 arg4 harg4 arg5 harg5 arg6 harg6 arg7 harg7 arg8 harg8 arg9 harg9 arg10 harg10 arg11 harg11 h0 h1 h2 h3 x0 x1 x2 x3 xo).2.1, y ∈ pc.1.set :=
  View.cover_of_tiledL _ S1x512.size (by sl_kernel_rfl) y
theorem coverA2 (y : S1x512.Idx) : ∃ pc ∈ (runA c i arg2 harg2 arg3 harg3 arg4 harg4 arg5 harg5 arg6 harg6 arg7 harg7 arg8 harg8 arg9 harg9 arg10 harg10 arg11 harg11 h0 h1 h2 h3 x0 x1 x2 x3 xo).2.2.1, y ∈ pc.1.set :=
  View.cover_of_tiledL _ S1x512.size (by sl_kernel_rfl) y

theorem canonA0 : View.canon (runA c i arg2 harg2 arg3 harg3 arg4 harg4 arg5 harg5 arg6 harg6 arg7 harg7 arg8 harg8 arg9 harg9 arg10 harg10 arg11 harg11 h0 h1 h2 h3 x0 x1 x2 x3 xo).1 = k0_pay6 x0 x1 (k0_pay1 (F := F)) := by
  unfold runA; dsimp only; sl_unfold_words
  rw [View.canon_cons_unit_zero (S := S1x512) offZero]
  simp only [View.readAt_eq_ld, harg2.read_unread, harg3.read_unread, harg4.read_unread, harg5.read_unread, harg7.read_unread, harg8.read_unread, harg9.read_unread, harg10.read_unread, harg11.read_unread, View.ld_unit_zero (S := S1024x512) offZero, View.ld_unit_zero (S := S1024x1) offZero, View.ld_unit_zero (S := S1x512) offZero, View.readCov_unit_zero (S := S1x512) _ offZero]
theorem canonA1 : View.canon (runA c i arg2 harg2 arg3 harg3 arg4 harg4 arg5 harg5 arg6 harg6 arg7 harg7 arg8 harg8 arg9 harg9 arg10 harg10 arg11 harg11 h0 h1 h2 h3 x0 x1 x2 x3 xo).2.1 = k0_pay7 x0 x1 (k0_pay2 (F := F)) := by
  unfold runA; dsimp only; sl_unfold_words
  rw [View.canon_cons_unit_zero (S := S1x512) offZero]
  simp only [View.readAt_eq_ld, harg2.read_unread, harg3.read_unread, harg4.read_unread, harg5.read_unread, harg7.read_unread, harg8.read_unread, harg9.read_unread, harg10.read_unread, harg11.read_unread, View.ld_unit_zero (S := S1024x512) offZero, View.ld_unit_zero (S := S1024x1) offZero, View.ld_unit_zero (S := S1x512) offZero, View.readCov_unit_zero (S := S1x512) _ offZero]
theorem canonA2 : View.canon (runA c i arg2 harg2 arg3 harg3 arg4 harg4 arg5 harg5 arg6 harg6 arg7 harg7 arg8 harg8 arg9 harg9 arg10 harg10 arg11 harg11 h0 h1 h2 h3 x0 x1 x2 x3 xo).2.2.1 = k0_pay8 x1 (k0_pay3 (F := F)) := by
  unfold runA; dsimp only; sl_unfold_words
  rw [View.canon_cons_unit_zero (S := S1x512) offZero]
  simp only [View.readAt_eq_ld, harg2.read_unread, harg3.read_unread, harg4.read_unread, harg5.read_unread, harg7.read_unread, harg8.read_unread, harg9.read_unread, harg10.read_unread, harg11.read_unread, View.ld_unit_zero (S := S1024x512) offZero, View.ld_unit_zero (S := S1024x1) offZero, View.ld_unit_zero (S := S1x512) offZero, View.readCov_unit_zero (S := S1x512) _ offZero]
end A

/-! ### A later point of phase 0 -/
section B
variable (h0 : ¬condInit i) (h1 : condAcc i) (h2 : ¬condFin i) (h3 : ¬condApply i)

theorem coverB0 (y : S1x512.Idx) : ∃ pc ∈ (runB c i arg2 harg2 arg3 harg3 arg4 harg4 arg5 harg5 arg6 harg6 arg7 harg7 arg8 harg8 arg9 harg9 arg10 harg10 arg11 harg11 h0 h1 h2 h3 x0 x1 x2 x3 xo xs0 xs1 xs2).1, y ∈ pc.1.set :=
  View.cover_of_tiledL _ S1x512.size (by sl_kernel_rfl) y
theorem coverB1 (y : S1x512.Idx) : ∃ pc ∈ (runB c i arg2 harg2 arg3 harg3 arg4 harg4 arg5 harg5 arg6 harg6 arg7 harg7 arg8 harg8 arg9 harg9 arg10 harg10 arg11 harg11 h0 h1 h2 h3 x0 x1 x2 x3 xo xs0 xs1 xs2).2.1, y ∈ pc.1.set :=
  View.cover_of_tiledL _ S1x512.size (by sl_kernel_rfl) y
theorem coverB2 (y : S1x512.Idx) : ∃ pc ∈ (runB c i arg2 harg2 arg3 harg3 arg4 harg4 arg5 harg5 arg6 harg6 arg7 harg7 arg8 harg8 arg9 harg9 arg10 harg10 arg11 harg11 h0 h1 h2 h3 x0 x1 x2 x3 xo xs0 xs1 xs2).2.2.1, y ∈ pc.1.set :=
  View.cover_of_tiledL _ S1x512.size (by sl_kernel_rfl) y

theorem canonB0 : View.canon (runB c i arg2 harg2 arg3 harg3 arg4 harg4 arg5 harg5 arg6 harg6 arg7 harg7 arg8 harg8 arg9 harg9 arg10 harg10 arg11 harg11 h0 h1 h2 h3 x0 x1 x2 x3 xo xs0 xs1 xs2).1 = k0_pay6 x0 x1 xs0 := by
  unfold runB; dsimp only; sl_unfold_words
  rw [View.canon_unit_zero (S := S1x512) offZero]
  simp only [View.readAt_eq_ld, harg2.read_unread, harg3.read_unread, harg4.read_unread, harg5.read_unread, harg7.read_unread, harg8.read_unread, harg9.read_unread, harg10.read_unread, harg11.read_unread, View.ld_unit_zero (S := S1024x512) offZero, View.ld_unit_zero (S := S1024x1) offZero, View.ld_unit_zero (S := S1x512) offZero, View.readCov_unit_zero (S := S1x512) _ offZero]
theorem canonB1 : View.canon (runB c i arg2 harg2 arg3 harg3 arg4 harg4 arg5 harg5 arg6 harg6 arg7 harg7 arg8 harg8 arg9 harg9 arg10 harg10 arg11 harg11 h0 h1 h2 h3 x0 x1 x2 x3 xo xs0 xs1 xs2).2.1 = k0_pay7 x0 x1 xs1 := by
  unfold runB; dsimp only; sl_unfold_words
  rw [View.canon_unit_zero (S := S1x512) offZero]
  simp only [View.readAt_eq_ld, harg2.read_unread, harg3.read_unread, harg4.read_unread, harg5.read_unread, harg7.read_unread, harg8.read_unread, harg9.read_unread, harg10.read_unread, harg11.read_unread, View.ld_unit_zero (S := S1024x512) offZero, View.ld_unit_zero (S := S1024x1) offZero, View.ld_unit_zero (S := S1x512) offZero, View.readCov_unit_zero (S := S1x512) _ offZero]
theorem canonB2 : View.canon (runB c i arg2 harg2 arg3 harg3 arg4 harg4 arg5 harg5 arg6 harg6 arg7 harg7 arg8 harg8 arg9 harg9 arg10 harg10 arg11 harg11 h0 h1 h2 h3 x0 x1 x2 x3 xo xs0 xs1 xs2).2.2.1 = k0_pay8 x1 xs2 := by
  unfold runB; dsimp only; sl_unfold_words
  rw [View.canon_unit_zero (S := S1x512) offZero]
  simp only [View.readAt_eq_ld, harg2.read_unread, harg3.read_unread, harg4.read_unread, harg5.read_unread, harg7.read_unread, harg8.read_unread, harg9.read_unread, harg10.read_unread, harg11.read_unread, View.ld_unit_zero (S := S1024x512) offZero, View.ld_unit_zero (S := S1024x1) offZero, View.ld_unit_zero (S := S1x512) offZero, View.readCov_unit_zero (S := S1x512) _ offZero]
end B

/-! ### The first point of phase 1 -/
section C
variable (h0 : ¬condInit i) (h1 : ¬condAcc i) (h2 : condFin i) (h3 : condApply i)

theorem coverCO (y : S1024x512.Idx) : ∃ pc ∈ (runC c i arg2 harg2 arg3 harg3 arg4 harg4 arg5 harg5 arg6 harg6 arg7 harg7 arg8 harg8 arg9 harg9 arg10 harg10 arg11 harg11 h0 h1 h2 h3 x0 x1 x2 x3 xs0 xs1 xs2).1, y ∈ pc.1.set :=
  View.cover_of_tiledL _ S1024x512.size (by sl_kernel_rfl) y
theorem coverC3 (y : S1x512.Idx) : ∃ pc ∈ (runC c i arg2 harg2 arg3 harg3 arg4 harg4 arg5 harg5 arg6 harg6 arg7 harg7 arg8 harg8 arg9 harg9 arg10 harg10 arg11 harg11 h0 h1 h2 h3 x0 x1 x2 x3 xs0 xs1 xs2).2.1, y ∈ pc.1.set :=
  View.cover_of_tiledL _ S1x512.size (by sl_kernel_rfl) y
theorem coverC4 (y : S1x512.Idx) : ∃ pc ∈ (runC c i arg2 harg2 arg3 harg3 arg4 harg4 arg5 harg5 arg6 harg6 arg7 harg7 arg8 harg8 arg9 harg9 arg10 harg10 arg11 harg11 h0 h1 h2 h3 x0 x1 x2 x3 xs0 xs1 xs2).2.2.1, y ∈ pc.1.set :=
  View.cover_of_tiledL _ S1x512.size (by sl_kernel_rfl) y

theorem canonC3 : View.canon (runC c i arg2 harg2 arg3 harg3 arg4 harg4 arg5 harg5 arg6 harg6 arg7 harg7 arg8 harg8 arg9 harg9 arg10 harg10 arg11 harg11 h0 h1 h2 h3 x0 x1 x2 x3 xs0 xs1 xs2).2.1 = k0_pay11 xs2 xs0 xs1 x2 := by
  unfold runC; dsimp only; sl_unfold_words
  rw [View.canon_unit_zero (S := S1x512) offZero]
  simp only [View.readAt_eq_ld, harg2.read_unread, harg3.read_unread, harg4.read_unread, harg5.read_unread, harg7.read_unread, harg8.read_unread, harg9.read_unread, harg10.read_unread, harg11.read_unread, View.ld_unit_zero (S := S1024x512) offZero, View.ld_unit_zero (S := S1024x1) offZero, View.ld_unit_zero (S := S1x512) offZero, View.readCov_unit_zero (S := S1x512) _ offZero]
theorem canonC4 : View.canon (runC c i arg2 harg2 arg3 harg3 arg4 harg4 arg5 harg5 arg6 harg6 arg7 harg7 arg8 harg8 arg9 harg9 arg10 harg10 arg11 harg11 h0 h1 h2 h3 x0 x1 x2 x3 xs0 xs1 xs2).2.2.1 = k0_pay12 xs2 xs0 xs1 x2 x3 := by
  unfold runC; dsimp only; sl_unfold_words
  rw [View.canon_unit_zero (S := S1x512) offZero]
  simp only [View.readAt_eq_ld, harg2.read_unread, harg3.read_unread, harg4.read_unread, harg5.read_unread, harg7.read_unread, harg8.read_unread, harg9.read_unread, harg10.read_unread, harg11.read_unread, View.ld_unit_zero (S := S1024x512) offZero, View.ld_unit_zero (S := S1024x1) offZero, View.ld_unit_zero (S := S1x512) offZero, View.readCov_unit_zero (S := S1x512) _ offZero]
theorem canonCO : View.canon (runC c i arg2 harg2 arg3 harg3 arg4 harg4 arg5 harg5 arg6 harg6 arg7 harg7 arg8 harg8 arg9 harg9 arg10 harg10 arg11 harg11 h0 h1 h2 h3 x0 x1 x2 x3 xs0 xs1 xs2).1
    = k0_pay13 x0 x1 (k0_pay11 xs2 xs0 xs1 x2) (k0_pay12 xs2 xs0 xs1 x2 x3) := by
  unfold runC; dsimp only; sl_unfold_words
  rw [View.canon_unit_zero (S := S1024x512) offZero]
  simp only [View.readAt_eq_ld, harg2.read_unread, harg3.read_unread, harg4.read_unread, harg5.read_unread, harg7.read_unread, harg8.read_unread, harg9.read_unread, harg10.read_unread, harg11.read_unread, View.ld_unit_zero (S := S1024x512) offZero, View.ld_unit_zero (S := S1024x1) offZero, View.ld_unit_zero (S := S1x512) offZero, View.readCov_unit_zero (S := S1x512) _ offZero]
end C

/-! ### A later point of phase 1 -/
section D
variable (h0 : ¬condInit i) (h1 : ¬condAcc i) (h2 : ¬condFin i) (h3 : condApply i)

theorem coverDO (y : S1024x512.Idx) : ∃ pc ∈ (runD c i arg2 harg2 arg3 harg3 arg4 harg4 arg5 harg5 arg6 harg6 arg7 harg7 arg8 harg8 arg9 harg9 arg10 harg10 arg11 harg11 h0 h1 h2 h3 x0 x1 x2 x3 xs0 xs1 xs2 xs3 xs4).1, y ∈ pc.1.set :=
  View.cover_of_tiledL _ S1024x512.size (by sl_kernel_rfl) y

theorem canonDO : View.canon (runD c i arg2 harg2 arg3 harg3 arg4 harg4 arg5 harg5 arg6 harg6 arg7 harg7 arg8 harg8 arg9 harg9 arg10 harg10 arg11 harg11 h0 h1 h2 h3 x0 x1 x2 x3 xs0 xs1 xs2 xs3 xs4).1 = k0_pay13 x0 x1 xs3 xs4 := by
  unfold runD; dsimp only; sl_unfold_words
  rw [View.canon_unit_zero (S := S1024x512) offZero]
  simp only [View.readAt_eq_ld, harg2.read_unread, harg3.read_unread, harg4.read_unread, harg5.read_unread, harg7.read_unread, harg8.read_unread, harg9.read_unread, harg10.read_unread, harg11.read_unread, View.ld_unit_zero (S := S1024x512) offZero, View.ld_unit_zero (S := S1024x1) offZero, View.ld_unit_zero (S := S1x512) offZero, View.readCov_unit_zero (S := S1x512) _ offZero]
end D

end

end Cert.Kernel.Body

end
-- ==== Proof.K.Data.lean ====
/-
  The proof data of the batch-norm pipeline, at any float instance.

  Point t = 64·p + i.  Through phase 0 (t < 64) the three accumulator rows hold, after point t, the column sums of
  x·m, (x·m)·x and m over row blocks 0 … t (`acc`); they are not written afterwards.  At point 64 the two coefficient rows
  are computed from the accumulators as point 63 left them and from the scale and shift rows (`coefc`, `coefb`); they are
  not written afterwards.  At point 64 + i the body stores x + (x·coefc + coefb)·m of row block i into the output's buffer
  (`outb`), which is then written back to block i of the output; through phase 0 the output's buffer is not touched and
  not written back.
-/
import proofs.«177905_g2027224563999_cont_sun_m_333_2_alg».proof.Proof.K.Pieces

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the rows hold, point by point -/

/-- Row block `t` of the input, of the mask column, and the scale and shift rows, as the region finds them. -/
abbrev xb (c : Dev nD) (t : Fin cfg0.N) : Vec F S1024x512 .f32 := iblk m c 0 t
abbrev mb (c : Dev nD) (t : Fin cfg0.N) : Vec F S1024x1 .f32 := iblk m c 1 t
abbrev gb (c : Dev nD) (t : Fin cfg0.N) : Vec F S1x512 .f32 := iblk m c 2 t
abbrev bb (c : Dev nD) (t : Fin cfg0.N) : Vec F S1x512 .f32 := iblk m c 3 t

/-- The three accumulator rows after the body at position `n`: zero plus the first row block's sums, then one more row
    block's sums per point of phase 0, then unchanged. -/
def acc (c : Dev nD) : (n : ℕ) → n < cfg0.N → Vec F S1x512 .f32 × Vec F S1x512 .f32 × Vec F S1x512 .f32
  | 0, hn => (k0_pay6 (xb m c ⟨0, hn⟩) (mb m c ⟨0, hn⟩) (k0_pay1 (F := F)), k0_pay7 (xb m c ⟨0, hn⟩) (mb m c ⟨0, hn⟩) (k0_pay2 (F := F)), k0_pay8 (mb m c ⟨0, hn⟩) (k0_pay3 (F := F)))
  | n + 1, hn =>
    if n + 1 < 64 then
      (k0_pay6 (xb m c ⟨n + 1, hn⟩) (mb m c ⟨n + 1, hn⟩) (acc c n (Nat.lt_of_succ_lt hn)).1,
       k0_pay7 (xb m c ⟨n + 1, hn⟩) (mb m c ⟨n + 1, hn⟩) (acc c n (Nat.lt_of_succ_lt hn)).2.1,
       k0_pay8 (mb m c ⟨n + 1, hn⟩) (acc c n (Nat.lt_of_succ_lt hn)).2.2)
    else acc c n (Nat.lt_of_succ_lt hn)

theorem acc_zero (c : Dev nD) (t : Fin cfg0.N) (h : t.val = 0) :
    acc m c t.val t.isLt = (k0_pay6 (xb m c t) (mb m c t) (k0_pay1 (F := F)), k0_pay7 (xb m c t) (mb m c t) (k0_pay2 (F := F)), k0_pay8 (mb m c t) (k0_pay3 (F := F))) := by
  obtain ⟨n, hn⟩ := t
  dsimp only at h; subst h; rfl

theorem acc_lt (c : Dev nD) (t : Fin cfg0.N) (h0 : t.val ≠ 0) (h : t.val < 64) :
    acc m c t.val t.isLt
      = (k0_pay6 (xb m c t) (mb m c t) (acc m c (t.val - 1) (Nat.lt_of_le_of_lt (Nat.sub_le _ _) t.isLt)).1,
         k0_pay7 (xb m c t) (mb m c t) (acc m c (t.val - 1) (Nat.lt_of_le_of_lt (Nat.sub_le _ _) t.isLt)).2.1,
         k0_pay8 (mb m c t) (acc m c (t.val - 1) (Nat.lt_of_le_of_lt (Nat.sub_le _ _) t.isLt)).2.2) := by
  obtain ⟨n, hn⟩ := t
  cases n with
  | zero => exact absurd rfl h0
  | succ n => exact (if_pos h).trans rfl

theorem acc_ge (c : Dev nD) (t : Fin cfg0.N) (h : 64 ≤ t.val) :
    acc m c t.val t.isLt = acc m c (t.val - 1) (Nat.lt_of_le_of_lt (Nat.sub_le _ _) t.isLt) := by
  obtain ⟨n, hn⟩ := t
  cases n with
  | zero => exact absurd h (by dsimp only; omega)
  | succ n => exact (if_neg (by dsimp only at h; omega)).trans rfl

/-- Point 64, the first of phase 1. -/
def t64 : Fin cfg0.N := ⟨64, lt_of_lt_of_eq (by decide : 64 < 128) (N_0).symm⟩

/-- The accumulators as phase 0 leaves them. -/
def accEnd (c : Dev nD) : Vec F S1x512 .f32 × Vec F S1x512 .f32 × Vec F S1x512 .f32 :=
  acc m c 63 (lt_of_lt_of_eq (by decide : 63 < 128) (N_0).symm)

/-- The two coefficient rows: a − 1 and b − μ·a. -/
def coefc (c : Dev nD) : Vec F S1x512 .f32 := k0_pay11 (accEnd m c).2.2 (accEnd m c).1 (accEnd m c).2.1 (gb m c t64)
def coefb (c : Dev nD) : Vec F S1x512 .f32 := k0_pay12 (accEnd m c).2.2 (accEnd m c).1 (accEnd m c).2.1 (gb m c t64) (bb m c t64)

/-- Row block `t` of the output as the body stores it. -/
def outb (c : Dev nD) (t : Fin cfg0.N) : Vec F S1024x512 .f32 := k0_pay13 (xb m c t) (mb m c t) (coefc m c) (coefb m c)

/-- From point 64 on the accumulators are what phase 0 left. -/
theorem acc_end (c : Dev nD) : ∀ (n : ℕ) (hn : n < cfg0.N), 63 ≤ n → acc m c n hn = accEnd m c := by
  intro n
  induction n with
  | zero => intro hn h; exact absurd h (by decide)
  | succ k ih =>
    intro hn h
    by_cases hk : k + 1 = 63
    · unfold accEnd; congr 1
    · have h64 : 64 ≤ k + 1 := by omega
      rw [show acc m c (k + 1) hn = acc m c k (Nat.lt_of_succ_lt hn) from (if_neg (by omega)).trans rfl]
      exact ih _ (by omega)

/-! ## The invariant between points -/

/-- The two coefficient rows between points: computed once point 64 has run, anything before. -/
def coefRes (c : Dev nD) (n : ℕ) : sProp 𝕄 :=
  if 64 ≤ n then iprop(owns (c : Thread nD τ) scC fullShare (coefc m c) ∗ owns (c : Thread nD τ) scB fullShare (coefb m c))
  else iprop((∃ d, owns (c : Thread nD τ) scC fullShare d) ∗ (∃ d, owns (c : Thread nD τ) scB fullShare d))

/-- Before position `n`: at the launch every scratch row holds anything; afterwards the accumulators hold what the point
    before left, the coefficient rows as `coefRes` says, and the generator register is at some state. -/
def PhiS (c : Dev nD) : (n : ℕ) → n ≤ cfg0.N → sProp 𝕄
  | 0, _ => Pipeline.ΦA spec0 c
  | n + 1, hn => iprop(iprop(owns (c : Thread nD τ) scS fullShare (acc m c n hn).1 ∗ owns (c : Thread nD τ) scQ fullShare (acc m c n hn).2.1 ∗ owns (c : Thread nD τ) scN fullShare (acc m c n hn).2.2 ∗ coefRes m c n) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scS fullShare (acc m c n hn).1 ∗ owns (c : Thread nD τ) scQ fullShare (acc m c n hn).2.1 ∗ owns (c : Thread nD τ) scN fullShare (acc m c n hn).2.2 ∗ coefRes m c n) ∗ (∃ r, prngReg c r)) := rfl

theorem PhiS_pos (c : Dev nD) (n : ℕ) (h : n ≤ cfg0.N) (hz : n ≠ 0) :
    PhiS m c n h = iprop(iprop(owns (c : Thread nD τ) scS fullShare (acc m c (n - 1) (by omega)).1 ∗ owns (c : Thread nD τ) scQ fullShare (acc m c (n - 1) (by omega)).2.1 ∗ owns (c : Thread nD τ) scN fullShare (acc m c (n - 1) (by omega)).2.2 ∗ coefRes m c (n - 1)) ∗ (∃ r, prngReg c r)) := by
  cases n with
  | zero => exact absurd rfl hz
  | succ n => rfl

theorem coefRes_lt (c : Dev nD) (n : ℕ) (h : n < 64) :
    coefRes m c n = iprop((∃ d, owns (c : Thread nD τ) scC fullShare d) ∗ (∃ d, owns (c : Thread nD τ) scB fullShare d)) := by
  unfold coefRes; rw [if_neg (by omega)]

theorem coefRes_ge (c : Dev nD) (n : ℕ) (h : 64 ≤ n) :
    coefRes m c n = iprop(owns (c : Thread nD τ) scC fullShare (coefc m c) ∗ owns (c : Thread nD τ) scB fullShare (coefb m c)) := by
  unfold coefRes; rw [if_pos h]

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outb m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outb m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
/-- Through phase 0 the output's buffer is handed back as it was found, -/
theorem leaves4_lt (c : Dev nD) (t : Fin cfg0.N) (h : t.val < 64) :
    (dats m 0 c).leavesExact 4 t = iprop(∃ d, owns (c : Thread nD τ) (ms4 t) fullShare ((dats m 0 c).before 4 t d)) :=
  (dats m 0 c).leavesExact_idle 4 t ((idle4_iff t).mpr h) (Bool.eq_false_iff.mpr fun hf => absurd ((flush4_iff t).mp hf) (by omega))
/-- and in phase 1 it holds this row block of the output. -/
theorem leaves4_ge (c : Dev nD) (t : Fin cfg0.N) (h : 64 ≤ t.val) :
    (dats m 0 c).leavesExact 4 t = owns (c : Thread nD τ) (ms4 t) fullShare (outb m c t) := by
  unfold Dat.leavesExact
  rw [show cfg0.idle 4 (cfg0.grid.coords t) = false from Bool.eq_false_iff.mpr fun hi => absurd ((idle4_iff t).mp hi) (by omega), after4]

set_option maxHeartbeats 12800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  have hN : t.val < 128 := lt_of_lt_of_eq t.isLt (show cfg0.N = 128 from N_0)
  by_cases hz : t.val = 0
  · -- the first point
    rw [leaves4_lt m c t (by omega), acc_zero m c t hz, coefRes_lt m c _ (by omega)]
    rw [PhiS_castSucc m c t, PhiS_zero m c _ _ hz, PhiA_eq]
    iintro ⟨⟨⟨HS0, HS1, HS2, HS3, HS4⟩, Hg⟩, Ho, ⟨%d0, H0⟩, ⟨%d1, H1⟩, ⟨%d2, H2⟩, ⟨%d3, H3⟩, ⟨%d4, H4⟩⟩
    iapply ((runA c (grid0.coords t) _ _ _ _ _ _ _ _ _ _ _ _ _ _ _ _ _ _ _ _ ((condInit_iff t).mpr hz) ((condAcc_iff t).mpr (by omega)) (fun h => absurd ((condFin_iff t).mp h) (by omega)) (fun h => absurd ((condApply_iff t).mp h) (by omega)) (iblk m c 0 t) (iblk m c 1 t) (iblk m c 2 t) (iblk m c 3 t) ((dats m 0 c).before 4 t d4)).2.2.2 Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    isplitl [HS4]; · iexact HS4
    iintro ⟨H0, H1, H2, H3, H4, ⟨%es0, HS0⟩, ⟨%es1, HS1⟩, ⟨%es2, HS2⟩, HS3, HS4⟩
    isplitl [HS0 HS1 HS2 HS3 HS4 Hg]
    · isplitl [HS0 HS1 HS2 HS3 HS4]
      · isplitl [HS0]
        · unfold owns; iexists _; isplitr
          swap; · iexact HS0
          ipureintro; exact (View.read_writes_eq_canon _ _ _ (coverA0 c _ _ _ _ _ _ _ _ _ _ _ _ _ _ _ _ _ _ _ _ _ _ _ _ _ _ _ _ _ _)).trans (canonA0 c _ _ _ _ _ _ _ _ _ _ _ _ _ _ _ _ _ _ _ _ _ _ _ _ _ _ _ _ _ _)
        isplitl [HS1]
        · unfold owns; iexists _; isplitr
          swap; · iexact HS1
          ipureintro; exact (View.read_writes_eq_canon _ _ _ (coverA1 c _ _ _ _ _ _ _ _ _ _ _ _ _ _ _ _ _ _ _ _ _ _ _ _ _ _ _ _ _ _)).trans (canonA1 c _ _ _ _ _ _ _ _ _ _ _ _ _ _ _ _ _ _ _ _ _ _ _ _ _ _ _ _ _ _)
        isplitl [HS2]
        · unfold owns; iexists _; isplitr
          swap; · iexact HS2
          ipureintro; exact (View.read_writes_eq_canon _ _ _ (coverA2 c _ _ _ _ _ _ _ _ _ _ _ _ _ _ _ _ _ _ _ _ _ _ _ _ _ _ _ _ _ _)).trans (canonA2 c _ _ _ _ _ _ _ _ _ _ _ _ _ _ _ _ _ _ _ _ _ _ _ _ _ _ _ _ _ _)
        isplitl [HS3]; · iexact HS3
        iexact HS4
      iexact Hg
    isplitl [Ho]; · iexact Ho
    isplitl [H0]; · iexact H0
    isplitl [H1]; · iexact H1
    isplitl [H2]; · iexact H2
    isplitl [H3]; · iexact H3
    iexists _; iexact H4
  · by_cases hlt : t.val < 64
    · -- a later point of phase 0
      rw [leaves4_lt m c t hlt, acc_lt m c t hz hlt, coefRes_lt m c _ hlt]
      rw [PhiS_castSucc m c t, PhiS_pos m c _ _ hz, coefRes_lt m c _ (by omega)]
      iintro ⟨⟨⟨HS0, HS1, HS2, HS3, HS4⟩, Hg⟩, Ho, ⟨%d0, H0⟩, ⟨%d1, H1⟩, ⟨%d2, H2⟩, ⟨%d3, H3⟩, ⟨%d4, H4⟩⟩
      iapply ((runB c (grid0.coords t) _ _ _ _ _ _ _ _ _ _ _ _ _ _ _ _ _ _ _ _ (fun h => hz ((condInit_iff t).mp h)) ((condAcc_iff t).mpr hlt) (fun h => absurd ((condFin_iff t).mp h) (by omega)) (fun h => absurd ((condApply_iff t).mp h) (by omega)) (iblk m c 0 t) (iblk m c 1 t) (iblk m c 2 t) (iblk m c 3 t) ((dats m 0 c).before 4 t d4) _ _ _).2.2.2 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      isplitl [HS4]; · iexact HS4
      iintro ⟨H0, H1, H2, H3, H4, ⟨%es0, HS0⟩, ⟨%es1, HS1⟩, ⟨%es2, HS2⟩, HS3, HS4⟩
      isplitl [HS0 HS1 HS2 HS3 HS4 Hg]
      · isplitl [HS0 HS1 HS2 HS3 HS4]
        · isplitl [HS0]
          · unfold owns; iexists _; isplitr
            swap; · iexact HS0
            ipureintro; exact (View.read_writes_eq_canon _ _ _ (coverB0 c _ _ _ _ _ _ _ _ _ _ _ _ _ _ _ _ _ _ _ _ _ _ _ _ _ _ _ _ _ _ _ _ _)).trans (canonB0 c _ _ _ _ _ _ _ _ _ _ _ _ _ _ _ _ _ _ _ _ _ _ _ _ _ _ _ _ _ _ _ _ _)
          isplitl [HS1]
          · unfold owns; iexists _; isplitr
            swap; · iexact HS1
            ipureintro; exact (View.read_writes_eq_canon _ _ _ (coverB1 c _ _ _ _ _ _ _ _ _ _ _ _ _ _ _ _ _ _ _ _ _ _ _ _ _ _ _ _ _ _ _ _ _)).trans (canonB1 c _ _ _ _ _ _ _ _ _ _ _ _ _ _ _ _ _ _ _ _ _ _ _ _ _ _ _ _ _ _ _ _ _)
          isplitl [HS2]
          · unfold owns; iexists _; isplitr
            swap; · iexact HS2
            ipureintro; exact (View.read_writes_eq_canon _ _ _ (coverB2 c _ _ _ _ _ _ _ _ _ _ _ _ _ _ _ _ _ _ _ _ _ _ _ _ _ _ _ _ _ _ _ _ _)).trans (canonB2 c _ _ _ _ _ _ _ _ _ _ _ _ _ _ _ _ _ _ _ _ _ _ _ _ _ _ _ _ _ _ _ _ _)
          isplitl [HS3]; · iexact HS3
          iexact HS4
        iexact Hg
      isplitl [Ho]; · iexact Ho
      isplitl [H0]; · iexact H0
      isplitl [H1]; · iexact H1
      isplitl [H2]; · iexact H2
      isplitl [H3]; · iexact H3
      iexists _; iexact H4
    · have hge : 64 ≤ t.val := by omega
      rw [leaves4_ge m c t hge, acc_ge m c t hge, coefRes_ge m c _ hge]
      rw [PhiS_castSucc m c t, PhiS_pos m c _ _ hz]
      by_cases h64 : t.val = 64
      · -- the first point of phase 1
        rw [coefRes_lt m c _ (by omega)]
        have hacc : acc m c (t.val - 1) (Nat.lt_of_le_of_lt (Nat.sub_le _ _) t.isLt) = accEnd m c := acc_end m c _ _ (by omega)
        have ht : t = t64 := Fin.ext h64
        iintro ⟨⟨⟨HS0, HS1, HS2, HS3, HS4⟩, Hg⟩, Ho, ⟨%d0, H0⟩, ⟨%d1, H1⟩, ⟨%d2, H2⟩, ⟨%d3, H3⟩, ⟨%d4, H4⟩⟩
        iapply ((runC c (grid0.coords t) _ _ _ _ _ _ _ _ _ _ _ _ _ _ _ _ _ _ _ _ (fun h => hz ((condInit_iff t).mp h)) (fun h => hlt ((condAcc_iff t).mp h)) ((condFin_iff t).mpr h64) ((condApply_iff t).mpr hge) (iblk m c 0 t) (iblk m c 1 t) (iblk m c 2 t) (iblk m c 3 t) _ _ _).2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        isplitl [HS3]; · iexact HS3
        isplitl [HS4]; · iexact HS4
        iintro ⟨H0, H1, H2, H3, ⟨%eo, H4⟩, HS0, HS1, HS2, ⟨%es3, HS3⟩, ⟨%es4, HS4⟩⟩
        isplitl [HS0 HS1 HS2 HS3 HS4 Hg]
        · isplitl [HS0 HS1 HS2 HS3 HS4]
          · isplitl [HS0]; · iexact HS0
            isplitl [HS1]; · iexact HS1
            isplitl [HS2]; · iexact HS2
            isplitl [HS3]
            · unfold owns; iexists _; isplitr
              swap; · iexact HS3
              ipureintro
              refine (View.read_writes_eq_canon _ _ _ (coverC3 c _ _ _ _ _ _ _ _ _ _ _ _ _ _ _ _ _ _ _ _ _ _ _ _ _ _ _ _ _ _ _ _)).trans ((canonC3 c _ _ _ _ _ _ _ _ _ _ _ _ _ _ _ _ _ _ _ _ _ _ _ _ _ _ _ _ _ _ _ _).trans ?_)
              unfold coefc gb; rw [hacc, ht]
            unfold owns; iexists _; isplitr
            swap; · iexact HS4
            ipureintro
            refine (View.read_writes_eq_canon _ _ _ (coverC4 c _ _ _ _ _ _ _ _ _ _ _ _ _ _ _ _ _ _ _ _ _ _ _ _ _ _ _ _ _ _ _ _)).trans ((canonC4 c _ _ _ _ _ _ _ _ _ _ _ _ _ _ _ _ _ _ _ _ _ _ _ _ _ _ _ _ _ _ _ _).trans ?_)
            unfold coefb gb bb; rw [hacc, ht]
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro
        refine (View.read_writes_eq_canon _ _ _ (coverCO c _ _ _ _ _ _ _ _ _ _ _ _ _ _ _ _ _ _ _ _ _ _ _ _ _ _ _ _ _ _ _ _)).trans ((canonCO c _ _ _ _ _ _ _ _ _ _ _ _ _ _ _ _ _ _ _ _ _ _ _ _ _ _ _ _ _ _ _ _).trans ?_)
        unfold outb coefc coefb xb mb gb bb; rw [hacc, ht]
      · -- a later point of phase 1
        rw [coefRes_ge m c _ (by omega)]
        iintro ⟨⟨⟨HS0, HS1, HS2, HS3, HS4⟩, Hg⟩, Ho, ⟨%d0, H0⟩, ⟨%d1, H1⟩, ⟨%d2, H2⟩, ⟨%d3, H3⟩, ⟨%d4, H4⟩⟩
        iapply ((runD c (grid0.coords t) _ _ _ _ _ _ _ _ _ _ _ _ _ _ _ _ _ _ _ _ (fun h => hz ((condInit_iff t).mp h)) (fun h => hlt ((condAcc_iff t).mp h)) (fun h => h64 ((condFin_iff t).mp h)) ((condApply_iff t).mpr hge) (iblk m c 0 t) (iblk m c 1 t) (iblk m c 2 t) (iblk m c 3 t) _ _ _ _ _).2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        isplitl [HS3]; · iexact HS3
        isplitl [HS4]; · iexact HS4
        iintro ⟨H0, H1, H2, H3, ⟨%eo, H4⟩, HS0, HS1, HS2, HS3, HS4⟩
        isplitl [HS0 HS1 HS2 HS3 HS4 Hg]
        · isplitl [HS0 HS1 HS2 HS3 HS4]
          · isplitl [HS0]; · iexact HS0
            isplitl [HS1]; · iexact HS1
            isplitl [HS2]; · iexact HS2
            isplitl [HS3]; · iexact HS3
            iexact HS4
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro
        exact (View.read_writes_eq_canon _ _ _ (coverDO c _ _ _ _ _ _ _ _ _ _ _ _ _ _ _ _ _ _ _ _ _ _ _ _ _ _ _ _ _ _ _ _ _ _)).trans (canonDO c _ _ _ _ _ _ _ _ _ _ _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch rows back at some contents. -/
theorem hout (c : Dev nD) : (dats m 0 c).Φ (Fin.last cfg0.N) ⊢ Pipeline.ΦA spec0 c := by
  have hN : cfg0.N = 128 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), coefRes_ge m c _ (by rw [Fin.val_last]; omega), PhiA_eq]
  iintro ⟨⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

/-! ## The run and the frame -/

set_option maxHeartbeats 4000000 in
set_option backward.isDefEq.respectTransparency.types false in
/-- Every weakly fair execution of @main terminates; each windowed array ends at what the write-backs of the proof data
    make of it, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same run with the output array named and the four argument arrays read off: the input window's array and the
    arrays no window stages are as launched. -/
theorem run_blocks : θ_run defs (onTc (τ := τ) (main (F := F))) ⟨m, fun _ => 0, ρ⟩ (fun r => ∀ c : Dev nD,
      r.2.mem ((c.tc : Thread nD τ).loc main_v4) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1 4,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.KI.Conds.lean ====
/-
  The batch-norm body over its 2 × 64 grid (phase p, row block i; point t = 64·p + i): which of its four
  conditionals run at a point, where the output window is idle and where its block is written back, and
  the staging and scratch buffers the body is called with.
-/
import proofs.«177905_g2027224563999_cont_sun_m_333_2_alg».proof.Proof.Gen.KernelIdeal.Frame
import proofs.«177905_g2027224563999_cont_sun_m_333_2_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The four conditionals, as functions of the grid coordinates -/

/-- "zero the accumulators": phase 0 and row block 0. -/
abbrev condInit (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- "accumulate this row block": phase 0. -/
abbrev condAcc (i : grid0.Coords) : Prop := (Scalar.cmpi .ne (Scalar.extui (Scalar.cmpi .eq (BitVec.ofNat 32 (i 0).val) 0#32)) 0#32) = 1#1
/-- "turn the accumulators into the affine coefficients": phase 1 and row block 0. -/
abbrev condFin (i : grid0.Coords) : Prop := (Scalar.cmpi .ne (Scalar.extui (Scalar.andi (Scalar.cmpi .eq (BitVec.ofNat 32 (i 0).val) 1#32) (Scalar.cmpi .eq (BitVec.ofNat 32 (i 1).val) 0#32))) 0#32) = 1#1
/-- "apply the affine map to this row block": phase 1. -/
abbrev condApply (i : grid0.Coords) : Prop := k0_cond4 i = 1#1

theorem condInit_iff : ∀ t : Fin cfg0.N, condInit (grid0.coords t) ↔ t.val = 0 :=
  (by decide +kernel : ∀ t : Fin grid0.N, condInit (grid0.coords t) ↔ t.val = 0)
theorem condAcc_iff : ∀ t : Fin cfg0.N, condAcc (grid0.coords t) ↔ t.val < 64 :=
  (by decide +kernel : ∀ t : Fin grid0.N, condAcc (grid0.coords t) ↔ t.val < 64)
theorem condFin_iff : ∀ t : Fin cfg0.N, condFin (grid0.coords t) ↔ t.val = 64 :=
  (by decide +kernel : ∀ t : Fin grid0.N, condFin (grid0.coords t) ↔ t.val = 64)
theorem condApply_iff : ∀ t : Fin cfg0.N, condApply (grid0.coords t) ↔ 64 ≤ t.val :=
  (by decide +kernel : ∀ t : Fin grid0.N, condApply (grid0.coords t) ↔ 64 ≤ t.val)

/-! ## Idle points and write-backs -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The output window is idle through phase 0 (nothing is stored into its buffer there), -/
theorem idle4_iff : ∀ t : Fin cfg0.N, cfg0.idle 4 (grid0.coords t) = true ↔ t.val < 64 :=
  (by decide +kernel : ∀ t : Fin grid0.N, cfg0.idle 4 (grid0.coords t) = true ↔ t.val < 64)
/-- and its block index p·i first moves after point 64: the block is written back at every point of phase 1
    and at none of phase 0. -/
theorem flush4_iff : ∀ t : Fin cfg0.N, (cfg0.win 4).flush t = true ↔ 64 ≤ t.val :=
  (by decide +kernel : ∀ t : Fin grid0.N, win0_4.flush t = true ↔ 64 ≤ t.val)

/-! ## The buffers the body is called with -/

abbrev ms0 (t : Fin cfg0.N) : Memref sig .tc .vmem S1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x512 .f32 := win0_4.stage (cfg0.slots t 4)
abbrev hs4 (t : Fin cfg0.N) : (ms4 t).IsWhole := hstage0_4 ((cfg0.slots t 4).cast nbuf0_4)
/-- The five scratch rows: the sum, the sum of squares, the count, and the two affine coefficients. -/
abbrev scS : Memref sig .tc .vmem S1x512 .f32 := Memref.whole cc0_scratch0
abbrev scQ : Memref sig .tc .vmem S1x512 .f32 := Memref.whole cc0_scratch1
abbrev scN : Memref sig .tc .vmem S1x512 .f32 := Memref.whole cc0_scratch2
abbrev scC : Memref sig .tc .vmem S1x512 .f32 := Memref.whole cc0_scratch3
abbrev scB : Memref sig .tc .vmem S1x512 .f32 := Memref.whole cc0_scratch4

/-- What the launch hands the region beside the windows: the five scratch rows at some contents and the
    generator register. -/
theorem PhiA_eq (c : Dev nD) :
    (Pipeline.ΦA spec0 c : sProp 𝕄)
      = iprop(iprop((∃ d, owns (c : Thread nD τ) scS fullShare d) ∗ (∃ d, owns (c : Thread nD τ) scQ fullShare d) ∗ (∃ d, owns (c : Thread nD τ) scN fullShare d) ∗ (∃ d, owns (c : Thread nD τ) scC fullShare d) ∗ (∃ d, owns (c : Thread nD τ) scB fullShare d)) ∗ (∃ r, prngReg c r)) := by
  unfold Pipeline.ΦA; rw [scopedRest0_eq]; simp only [scS, scQ, scN, scC, scB, owns_whole]; try rfl

end Cert.KernelIdeal.Body

end
-- ==== Proof.KI.RunA.lean ====
/-
  The body at the first point (phase 0, row block 0): the three accumulators are zeroed and then take the
  first row block's column sums; the output's buffer and the two coefficient rows are not touched.
-/
import proofs.«177905_g2027224563999_cont_sun_m_333_2_alg».proof.Proof.KI.Conds

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At the first point the body runs, from the inputs' buffers at their blocks, the output's buffer at `xo` and every
    scratch row at anything, to the same with each accumulator row overwritten by the pieces found (last store first). -/
noncomputable def runA (c : Dev nD) (i : grid0.Coords) (arg2 : Memref sig .tc .vmem S1024x512 .f32) (harg2 : arg2.IsWhole) (arg3 : Memref sig .tc .vmem S1024x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (h0 : condInit i) (h1 : condAcc i) (h2 : ¬condFin i) (h3 : ¬condApply i)
    (x0 : Vec F S1024x512 .f32) (x1 : Vec F S1024x1 .f32) (x2 : Vec F S1x512 .f32) (x3 : Vec F S1x512 .f32) (xo : Vec F S1024x512 .f32) :
    Σ' (LS0 : List (View.Piece (Elt F) S1x512 .f32)), Σ' (LS1 : List (View.Piece (Elt F) S1x512 .f32)), { LS2 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ d, owns (c : Thread nD τ) arg10 fullShare d) ∗ (∃ d, owns (c : Thread nD τ) arg11 fullShare d)) -∗ K ⟨⟩))
          ⊢ wp frame (wpE (defs₀ (F := F)) Variants.none c none) E (cc0__bn_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__bn_kernel_eq_skeleton]; unfold cc0__bn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact h0 | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    isplitl [HS3]
    · iexists _, _; isplitr; swap; · iexact HS3
      ipureintro; rfl
    iexists _, _; isplitr; swap; · iexact HS4
    ipureintro; rfl

end Cert.KernelIdeal.Body

end
-- ==== Proof.KI.RunB.lean ====
/-
  The body at a later point of phase 0: each accumulator row, found at what the point before left, takes this
  row block's column sums on top; the output's buffer and the two coefficient rows are not touched.
-/
import proofs.«177905_g2027224563999_cont_sun_m_333_2_alg».proof.Proof.KI.RunA

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def runB (c : Dev nD) (i : grid0.Coords) (arg2 : Memref sig .tc .vmem S1024x512 .f32) (harg2 : arg2.IsWhole) (arg3 : Memref sig .tc .vmem S1024x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (h0 : ¬condInit i) (h1 : condAcc i) (h2 : ¬condFin i) (h3 : ¬condApply i)
    (x0 : Vec F S1024x512 .f32) (x1 : Vec F S1024x1 .f32) (x2 : Vec F S1x512 .f32) (x3 : Vec F S1x512 .f32) (xo : Vec F S1024x512 .f32)
    (xs0 : Vec F S1x512 .f32) (xs1 : Vec F S1x512 .f32) (xs2 : Vec F S1x512 .f32) :
    Σ' (LS0 : List (View.Piece (Elt F) S1x512 .f32)), Σ' (LS1 : List (View.Piece (Elt F) S1x512 .f32)), { LS2 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs0 ∗ owns (c : Thread nD τ) arg8 fullShare xs1 ∗ owns (c : Thread nD τ) arg9 fullShare xs2 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ d, owns (c : Thread nD τ) arg10 fullShare d) ∗ (∃ d, owns (c : Thread nD τ) arg11 fullShare d)) -∗ K ⟨⟩))
          ⊢ wp frame (wpE (defs₀ (F := F)) Variants.none c none) E (cc0__bn_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__bn_kernel_eq_skeleton]; unfold cc0__bn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2
    sl_exec (disch := first | exact h0 | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    isplitl [HS3]
    · iexists _, _; isplitr; swap; · iexact HS3
      ipureintro; rfl
    iexists _, _; isplitr; swap; · iexact HS4
    ipureintro; rfl

end Cert.KernelIdeal.Body

end
-- ==== Proof.KI.RunC.lean ====
/-
  The body at the first point of phase 1: the accumulators, read only, give the two coefficient rows, and the
  first row block of the output is stored whole from them.
-/
import proofs.«177905_g2027224563999_cont_sun_m_333_2_alg».proof.Proof.KI.RunB

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def runC (c : Dev nD) (i : grid0.Coords) (arg2 : Memref sig .tc .vmem S1024x512 .f32) (harg2 : arg2.IsWhole) (arg3 : Memref sig .tc .vmem S1024x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (h0 : ¬condInit i) (h1 : ¬condAcc i) (h2 : condFin i) (h3 : condApply i)
    (x0 : Vec F S1024x512 .f32) (x1 : Vec F S1024x1 .f32) (x2 : Vec F S1x512 .f32) (x3 : Vec F S1x512 .f32)
    (xs0 : Vec F S1x512 .f32) (xs1 : Vec F S1x512 .f32) (xs2 : Vec F S1x512 .f32) :
    Σ' (LO : List (View.Piece (Elt F) S1024x512 .f32)), Σ' (LS3 : List (View.Piece (Elt F) S1x512 .f32)), { LS4 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ owns (c : Thread nD τ) arg7 fullShare xs0 ∗ owns (c : Thread nD τ) arg8 fullShare xs1 ∗ owns (c : Thread nD τ) arg9 fullShare xs2 ∗ (∃ f, arg10.view.loc (c : Thread nD τ) ↦[arg10.view.set]{fullShare} arg10.view.writes (Elt F) f LS3) ∗ (∃ f, arg11.view.loc (c : Thread nD τ) ↦[arg11.view.set]{fullShare} arg11.view.writes (Elt F) f LS4)) -∗ K ⟨⟩))
          ⊢ wp frame (wpE (defs₀ (F := F)) Variants.none c none) E (cc0__bn_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__bn_kernel_eq_skeleton]; unfold cc0__bn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact h0 | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]
    · iexists _; isplitr; · ipureintro; exact harg7.read_unread _
      iexact HS0
    isplitl [HS1]
    · iexists _; isplitr; · ipureintro; exact harg8.read_unread _
      iexact HS1
    isplitl [HS2]
    · iexists _; isplitr; · ipureintro; exact harg9.read_unread _
      iexact HS2
    isplitl [HS3]; · iexists _; iexact HS3
    iexists _; iexact HS4

end Cert.KernelIdeal.Body

end
-- ==== Proof.KI.RunD.lean ====
/-
  The body at a later point of phase 1: the two coefficient rows, read only, and this row block of the input
  give this row block of the output, stored whole.
-/
import proofs.«177905_g2027224563999_cont_sun_m_333_2_alg».proof.Proof.KI.RunC

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def runD (c : Dev nD) (i : grid0.Coords) (arg2 : Memref sig .tc .vmem S1024x512 .f32) (harg2 : arg2.IsWhole) (arg3 : Memref sig .tc .vmem S1024x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (h0 : ¬condInit i) (h1 : ¬condAcc i) (h2 : ¬condFin i) (h3 : condApply i)
    (x0 : Vec F S1024x512 .f32) (x1 : Vec F S1024x1 .f32) (x2 : Vec F S1x512 .f32) (x3 : Vec F S1x512 .f32)
    (xs0 : Vec F S1x512 .f32) (xs1 : Vec F S1x512 .f32) (xs2 : Vec F S1x512 .f32) (xs3 : Vec F S1x512 .f32) (xs4 : Vec F S1x512 .f32) :
    { LO : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2 ∗ owns (c : Thread nD τ) arg10 fullShare xs3 ∗ owns (c : Thread nD τ) arg11 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ owns (c : Thread nD τ) arg7 fullShare xs0 ∗ owns (c : Thread nD τ) arg8 fullShare xs1 ∗ owns (c : Thread nD τ) arg9 fullShare xs2 ∗ owns (c : Thread nD τ) arg10 fullShare xs3 ∗ owns (c : Thread nD τ) arg11 fullShare xs4) -∗ K ⟨⟩))
          ⊢ wp frame (wpE (defs₀ (F := F)) Variants.none c none) E (cc0__bn_kernel i arg2 harg2 arg3 harg3 arg4 harg4 arg5 harg5 arg6 harg6 arg7 harg7 arg8 harg8 arg9 harg9 arg10 harg10 arg11 harg11) K } := by
  refine ⟨?_, fun E K => ?run⟩
  case run =>
    simp only [cc0__bn_kernel_eq_skeleton]; unfold cc0__bn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    obtain rfl := harg10.eq_unread hfs3; obtain rfl := harg11.eq_unread hfs4
    sl_exec (disch := first | exact h0 | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]
    · iexists _; isplitr; · ipureintro; exact harg7.read_unread _
      iexact HS0
    isplitl [HS1]
    · iexists _; isplitr; · ipureintro; exact harg8.read_unread _
      iexact HS1
    isplitl [HS2]
    · iexists _; isplitr; · ipureintro; exact harg9.read_unread _
      iexact HS2
    isplitl [HS3]
    · iexists _; isplitr; · ipureintro; exact harg10.read_unread _
      iexact HS3
    iexists _; isplitr; · ipureintro; exact harg11.read_unread _
    iexact HS4

end Cert.KernelIdeal.Body

end
-- ==== Proof.KI.Pieces.lean ====
/-
  What each case of the body leaves in the rows it stores, as ONE value per row: every store of the body writes a whole
  row (or the whole output block) at offset zero, so the pieces a run finds cover the buffer and read back as the last
  store's payload; a row read back after a store in the same run (the zeroed accumulators at the first point, the two
  coefficient rows at the first point of phase 1) reads that store's payload.
-/
import proofs.«177905_g2027224563999_cont_sun_m_333_2_alg».proof.Proof.KI.RunD
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Every store of the body is at offset zero. -/
theorem offZero : (![0, 0] : Fin 2 → ℕ) = fun _ => 0 := by
  funext a; match a with | ⟨0, _⟩ => rfl | ⟨1, _⟩ => rfl

section
variable (c : Dev nD) (i : grid0.Coords) (arg2 : Memref sig .tc .vmem S1024x512 .f32) (harg2 : arg2.IsWhole) (arg3 : Memref sig .tc .vmem S1024x1 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole)
variable (x0 : Vec F S1024x512 .f32) (x1 : Vec F S1024x1 .f32) (x2 : Vec F S1x512 .f32) (x3 : Vec F S1x512 .f32) (xo : Vec F S1024x512 .f32)
  (xs0 xs1 xs2 xs3 xs4 : Vec F S1x512 .f32)

/-! ### The first point -/
section A
variable (h0 : condInit i) (h1 : condAcc i) (h2 : ¬condFin i) (h3 : ¬condApply i)

theorem coverA0 (y : S1x512.Idx) : ∃ pc ∈ (runA c i arg2 harg2 arg3 harg3 arg4 harg4 arg5 harg5 arg6 harg6 arg7 harg7 arg8 harg8 arg9 harg9 arg10 harg10 arg11 harg11 h0 h1 h2 h3 x0 x1 x2 x3 xo).1, y ∈ pc.1.set :=
  View.cover_of_tiledL _ S1x512.size (by sl_kernel_rfl) y
theorem coverA1 (y : S1x512.Idx) : ∃ pc ∈ (runA c i arg2 harg2 arg3 harg3 arg4 harg4 arg5 harg5 arg6 harg6 arg7 harg7 arg8 harg8 arg9 harg9 arg10 harg10 arg11 harg11 h0 h1 h2 h3 x0 x1 x2 x3 xo).2.1, y ∈ pc.1.set :=
  View.cover_of_tiledL _ S1x512.size (by sl_kernel_rfl) y
theorem coverA2 (y : S1x512.Idx) : ∃ pc ∈ (runA c i arg2 harg2 arg3 harg3 arg4 harg4 arg5 harg5 arg6 harg6 arg7 harg7 arg8 harg8 arg9 harg9 arg10 harg10 arg11 harg11 h0 h1 h2 h3 x0 x1 x2 x3 xo).2.2.1, y ∈ pc.1.set :=
  View.cover_of_tiledL _ S1x512.size (by sl_kernel_rfl) y

theorem canonA0 : View.canon (runA c i arg2 harg2 arg3 harg3 arg4 harg4 arg5 harg5 arg6 harg6 arg7 harg7 arg8 harg8 arg9 harg9 arg10 harg10 arg11 harg11 h0 h1 h2 h3 x0 x1 x2 x3 xo).1 = k0_pay6 x0 x1 (k0_pay1 (F := F)) := by
  unfold runA; dsimp only; sl_unfold_words
  rw [View.canon_cons_unit_zero (S := S1x512) offZero]
  simp only [View.readAt_eq_ld, harg2.read_unread, harg3.read_unread, harg4.read_unread, harg5.read_unread, harg7.read_unread, harg8.read_unread, harg9.read_unread, harg10.read_unread, harg11.read_unread, View.ld_unit_zero (S := S1024x512) offZero, View.ld_unit_zero (S := S1024x1) offZero, View.ld_unit_zero (S := S1x512) offZero, View.readCov_unit_zero (S := S1x512) _ offZero]
theorem canonA1 : View.canon (runA c i arg2 harg2 arg3 harg3 arg4 harg4 arg5 harg5 arg6 harg6 arg7 harg7 arg8 harg8 arg9 harg9 arg10 harg10 arg11 harg11 h0 h1 h2 h3 x0 x1 x2 x3 xo).2.1 = k0_pay7 x0 x1 (k0_pay2 (F := F)) := by
  unfold runA; dsimp only; sl_unfold_words
  rw [View.canon_cons_unit_zero (S := S1x512) offZero]
  simp only [View.readAt_eq_ld, harg2.read_unread, harg3.read_unread, harg4.read_unread, harg5.read_unread, harg7.read_unread, harg8.read_unread, harg9.read_unread, harg10.read_unread, harg11.read_unread, View.ld_unit_zero (S := S1024x512) offZero, View.ld_unit_zero (S := S1024x1) offZero, View.ld_unit_zero (S := S1x512) offZero, View.readCov_unit_zero (S := S1x512) _ offZero]
theorem canonA2 : View.canon (runA c i arg2 harg2 arg3 harg3 arg4 harg4 arg5 harg5 arg6 harg6 arg7 harg7 arg8 harg8 arg9 harg9 arg10 harg10 arg11 harg11 h0 h1 h2 h3 x0 x1 x2 x3 xo).2.2.1 = k0_pay8 x1 (k0_pay3 (F := F)) := by
  unfold runA; dsimp only; sl_unfold_words
  rw [View.canon_cons_unit_zero (S := S1x512) offZero]
  simp only [View.readAt_eq_ld, harg2.read_unread, harg3.read_unread, harg4.read_unread, harg5.read_unread, harg7.read_unread, harg8.read_unread, harg9.read_unread, harg10.read_unread, harg11.read_unread, View.ld_unit_zero (S := S1024x512) offZero, View.ld_unit_zero (S := S1024x1) offZero, View.ld_unit_zero (S := S1x512) offZero, View.readCov_unit_zero (S := S1x512) _ offZero]
end A

/-! ### A later point of phase 0 -/
section B
variable (h0 : ¬condInit i) (h1 : condAcc i) (h2 : ¬condFin i) (h3 : ¬condApply i)

theorem coverB0 (y : S1x512.Idx) : ∃ pc ∈ (runB c i arg2 harg2 arg3 harg3 arg4 harg4 arg5 harg5 arg6 harg6 arg7 harg7 arg8 harg8 arg9 harg9 arg10 harg10 arg11 harg11 h0 h1 h2 h3 x0 x1 x2 x3 xo xs0 xs1 xs2).1, y ∈ pc.1.set :=
  View.cover_of_tiledL _ S1x512.size (by sl_kernel_rfl) y
theorem coverB1 (y : S1x512.Idx) : ∃ pc ∈ (runB c i arg2 harg2 arg3 harg3 arg4 harg4 arg5 harg5 arg6 harg6 arg7 harg7 arg8 harg8 arg9 harg9 arg10 harg10 arg11 harg11 h0 h1 h2 h3 x0 x1 x2 x3 xo xs0 xs1 xs2).2.1, y ∈ pc.1.set :=
  View.cover_of_tiledL _ S1x512.size (by sl_kernel_rfl) y
theorem coverB2 (y : S1x512.Idx) : ∃ pc ∈ (runB c i arg2 harg2 arg3 harg3 arg4 harg4 arg5 harg5 arg6 harg6 arg7 harg7 arg8 harg8 arg9 harg9 arg10 harg10 arg11 harg11 h0 h1 h2 h3 x0 x1 x2 x3 xo xs0 xs1 xs2).2.2.1, y ∈ pc.1.set :=
  View.cover_of_tiledL _ S1x512.size (by sl_kernel_rfl) y

theorem canonB0 : View.canon (runB c i arg2 harg2 arg3 harg3 arg4 harg4 arg5 harg5 arg6 harg6 arg7 harg7 arg8 harg8 arg9 harg9 arg10 harg10 arg11 harg11 h0 h1 h2 h3 x0 x1 x2 x3 xo xs0 xs1 xs2).1 = k0_pay6 x0 x1 xs0 := by
  unfold runB; dsimp only; sl_unfold_words
  rw [View.canon_unit_zero (S := S1x512) offZero]
  simp only [View.readAt_eq_ld, harg2.read_unread, harg3.read_unread, harg4.read_unread, harg5.read_unread, harg7.read_unread, harg8.read_unread, harg9.read_unread, harg10.read_unread, harg11.read_unread, View.ld_unit_zero (S := S1024x512) offZero, View.ld_unit_zero (S := S1024x1) offZero, View.ld_unit_zero (S := S1x512) offZero, View.readCov_unit_zero (S := S1x512) _ offZero]
theorem canonB1 : View.canon (runB c i arg2 harg2 arg3 harg3 arg4 harg4 arg5 harg5 arg6 harg6 arg7 harg7 arg8 harg8 arg9 harg9 arg10 harg10 arg11 harg11 h0 h1 h2 h3 x0 x1 x2 x3 xo xs0 xs1 xs2).2.1 = k0_pay7 x0 x1 xs1 := by
  unfold runB; dsimp only; sl_unfold_words
  rw [View.canon_unit_zero (S := S1x512) offZero]
  simp only [View.readAt_eq_ld, harg2.read_unread, harg3.read_unread, harg4.read_unread, harg5.read_unread, harg7.read_unread, harg8.read_unread, harg9.read_unread, harg10.read_unread, harg11.read_unread, View.ld_unit_zero (S := S1024x512) offZero, View.ld_unit_zero (S := S1024x1) offZero, View.ld_unit_zero (S := S1x512) offZero, View.readCov_unit_zero (S := S1x512) _ offZero]
theorem canonB2 : View.canon (runB c i arg2 harg2 arg3 harg3 arg4 harg4 arg5 harg5 arg6 harg6 arg7 harg7 arg8 harg8 arg9 harg9 arg10 harg10 arg11 harg11 h0 h1 h2 h3 x0 x1 x2 x3 xo xs0 xs1 xs2).2.2.1 = k0_pay8 x1 xs2 := by
  unfold runB; dsimp only; sl_unfold_words
  rw [View.canon_unit_zero (S := S1x512) offZero]
  simp only [View.readAt_eq_ld, harg2.read_unread, harg3.read_unread, harg4.read_unread, harg5.read_unread, harg7.read_unread, harg8.read_unread, harg9.read_unread, harg10.read_unread, harg11.read_unread, View.ld_unit_zero (S := S1024x512) offZero, View.ld_unit_zero (S := S1024x1) offZero, View.ld_unit_zero (S := S1x512) offZero, View.readCov_unit_zero (S := S1x512) _ offZero]
end B

/-! ### The first point of phase 1 -/
section C
variable (h0 : ¬condInit i) (h1 : ¬condAcc i) (h2 : condFin i) (h3 : condApply i)

theorem coverCO (y : S1024x512.Idx) : ∃ pc ∈ (runC c i arg2 harg2 arg3 harg3 arg4 harg4 arg5 harg5 arg6 harg6 arg7 harg7 arg8 harg8 arg9 harg9 arg10 harg10 arg11 harg11 h0 h1 h2 h3 x0 x1 x2 x3 xs0 xs1 xs2).1, y ∈ pc.1.set :=
  View.cover_of_tiledL _ S1024x512.size (by sl_kernel_rfl) y
theorem coverC3 (y : S1x512.Idx) : ∃ pc ∈ (runC c i arg2 harg2 arg3 harg3 arg4 harg4 arg5 harg5 arg6 harg6 arg7 harg7 arg8 harg8 arg9 harg9 arg10 harg10 arg11 harg11 h0 h1 h2 h3 x0 x1 x2 x3 xs0 xs1 xs2).2.1, y ∈ pc.1.set :=
  View.cover_of_tiledL _ S1x512.size (by sl_kernel_rfl) y
theorem coverC4 (y : S1x512.Idx) : ∃ pc ∈ (runC c i arg2 harg2 arg3 harg3 arg4 harg4 arg5 harg5 arg6 harg6 arg7 harg7 arg8 harg8 arg9 harg9 arg10 harg10 arg11 harg11 h0 h1 h2 h3 x0 x1 x2 x3 xs0 xs1 xs2).2.2.1, y ∈ pc.1.set :=
  View.cover_of_tiledL _ S1x512.size (by sl_kernel_rfl) y

theorem canonC3 : View.canon (runC c i arg2 harg2 arg3 harg3 arg4 harg4 arg5 harg5 arg6 harg6 arg7 harg7 arg8 harg8 arg9 harg9 arg10 harg10 arg11 harg11 h0 h1 h2 h3 x0 x1 x2 x3 xs0 xs1 xs2).2.1 = k0_pay11 xs2 xs0 xs1 x2 := by
  unfold runC; dsimp only; sl_unfold_words
  rw [View.canon_unit_zero (S := S1x512) offZero]
  simp only [View.readAt_eq_ld, harg2.read_unread, harg3.read_unread, harg4.read_unread, harg5.read_unread, harg7.read_unread, harg8.read_unread, harg9.read_unread, harg10.read_unread, harg11.read_unread, View.ld_unit_zero (S := S1024x512) offZero, View.ld_unit_zero (S := S1024x1) offZero, View.ld_unit_zero (S := S1x512) offZero, View.readCov_unit_zero (S := S1x512) _ offZero]
theorem canonC4 : View.canon (runC c i arg2 harg2 arg3 harg3 arg4 harg4 arg5 harg5 arg6 harg6 arg7 harg7 arg8 harg8 arg9 harg9 arg10 harg10 arg11 harg11 h0 h1 h2 h3 x0 x1 x2 x3 xs0 xs1 xs2).2.2.1 = k0_pay12 xs2 xs0 xs1 x2 x3 := by
  unfold runC; dsimp only; sl_unfold_words
  rw [View.canon_unit_zero (S := S1x512) offZero]
  simp only [View.readAt_eq_ld, harg2.read_unread, harg3.read_unread, harg4.read_unread, harg5.read_unread, harg7.read_unread, harg8.read_unread, harg9.read_unread, harg10.read_unread, harg11.read_unread, View.ld_unit_zero (S := S1024x512) offZero, View.ld_unit_zero (S := S1024x1) offZero, View.ld_unit_zero (S := S1x512) offZero, View.readCov_unit_zero (S := S1x512) _ offZero]
theorem canonCO : View.canon (runC c i arg2 harg2 arg3 harg3 arg4 harg4 arg5 harg5 arg6 harg6 arg7 harg7 arg8 harg8 arg9 harg9 arg10 harg10 arg11 harg11 h0 h1 h2 h3 x0 x1 x2 x3 xs0 xs1 xs2).1
    = k0_pay13 x0 x1 (k0_pay11 xs2 xs0 xs1 x2) (k0_pay12 xs2 xs0 xs1 x2 x3) := by
  unfold runC; dsimp only; sl_unfold_words
  rw [View.canon_unit_zero (S := S1024x512) offZero]
  simp only [View.readAt_eq_ld, harg2.read_unread, harg3.read_unread, harg4.read_unread, harg5.read_unread, harg7.read_unread, harg8.read_unread, harg9.read_unread, harg10.read_unread, harg11.read_unread, View.ld_unit_zero (S := S1024x512) offZero, View.ld_unit_zero (S := S1024x1) offZero, View.ld_unit_zero (S := S1x512) offZero, View.readCov_unit_zero (S := S1x512) _ offZero]
end C

/-! ### A later point of phase 1 -/
section D
variable (h0 : ¬condInit i) (h1 : ¬condAcc i) (h2 : ¬condFin i) (h3 : condApply i)

theorem coverDO (y : S1024x512.Idx) : ∃ pc ∈ (runD c i arg2 harg2 arg3 harg3 arg4 harg4 arg5 harg5 arg6 harg6 arg7 harg7 arg8 harg8 arg9 harg9 arg10 harg10 arg11 harg11 h0 h1 h2 h3 x0 x1 x2 x3 xs0 xs1 xs2 xs3 xs4).1, y ∈ pc.1.set :=
  View.cover_of_tiledL _ S1024x512.size (by sl_kernel_rfl) y

theorem canonDO : View.canon (runD c i arg2 harg2 arg3 harg3 arg4 harg4 arg5 harg5 arg6 harg6 arg7 harg7 arg8 harg8 arg9 harg9 arg10 harg10 arg11 harg11 h0 h1 h2 h3 x0 x1 x2 x3 xs0 xs1 xs2 xs3 xs4).1 = k0_pay13 x0 x1 xs3 xs4 := by
  unfold runD; dsimp only; sl_unfold_words
  rw [View.canon_unit_zero (S := S1024x512) offZero]
  simp only [View.readAt_eq_ld, harg2.read_unread, harg3.read_unread, harg4.read_unread, harg5.read_unread, harg7.read_unread, harg8.read_unread, harg9.read_unread, harg10.read_unread, harg11.read_unread, View.ld_unit_zero (S := S1024x512) offZero, View.ld_unit_zero (S := S1024x1) offZero, View.ld_unit_zero (S := S1x512) offZero, View.readCov_unit_zero (S := S1x512) _ offZero]
end D

end

end Cert.KernelIdeal.Body

end
-- ==== Proof.KI.Data.lean ====
/-
  The proof data of the batch-norm pipeline, at any float instance.

  Point t = 64·p + i.  Through phase 0 (t < 64) the three accumulator rows hold, after point t, the column sums of
  x·m, (x·m)·x and m over row blocks 0 … t (`acc`); they are not written afterwards.  At point 64 the two coefficient rows
  are computed from the accumulators as point 63 left them and from the scale and shift rows (`coefc`, `coefb`); they are
  not written afterwards.  At point 64 + i the body stores x + (x·coefc + coefb)·m of row block i into the output's buffer
  (`outb`), which is then written back to block i of the output; through phase 0 the output's buffer is not touched and
  not written back.
-/
import proofs.«177905_g2027224563999_cont_sun_m_333_2_alg».proof.Proof.KI.Pieces

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the rows hold, point by point -/

/-- Row block `t` of the input, of the mask column, and the scale and shift rows, as the region finds them. -/
abbrev xb (c : Dev nD) (t : Fin cfg0.N) : Vec F S1024x512 .f32 := iblk m c 0 t
abbrev mb (c : Dev nD) (t : Fin cfg0.N) : Vec F S1024x1 .f32 := iblk m c 1 t
abbrev gb (c : Dev nD) (t : Fin cfg0.N) : Vec F S1x512 .f32 := iblk m c 2 t
abbrev bb (c : Dev nD) (t : Fin cfg0.N) : Vec F S1x512 .f32 := iblk m c 3 t

/-- The three accumulator rows after the body at position `n`: zero plus the first row block's sums, then one more row
    block's sums per point of phase 0, then unchanged. -/
def acc (c : Dev nD) : (n : ℕ) → n < cfg0.N → Vec F S1x512 .f32 × Vec F S1x512 .f32 × Vec F S1x512 .f32
  | 0, hn => (k0_pay6 (xb m c ⟨0, hn⟩) (mb m c ⟨0, hn⟩) (k0_pay1 (F := F)), k0_pay7 (xb m c ⟨0, hn⟩) (mb m c ⟨0, hn⟩) (k0_pay2 (F := F)), k0_pay8 (mb m c ⟨0, hn⟩) (k0_pay3 (F := F)))
  | n + 1, hn =>
    if n + 1 < 64 then
      (k0_pay6 (xb m c ⟨n + 1, hn⟩) (mb m c ⟨n + 1, hn⟩) (acc c n (Nat.lt_of_succ_lt hn)).1,
       k0_pay7 (xb m c ⟨n + 1, hn⟩) (mb m c ⟨n + 1, hn⟩) (acc c n (Nat.lt_of_succ_lt hn)).2.1,
       k0_pay8 (mb m c ⟨n + 1, hn⟩) (acc c n (Nat.lt_of_succ_lt hn)).2.2)
    else acc c n (Nat.lt_of_succ_lt hn)

theorem acc_zero (c : Dev nD) (t : Fin cfg0.N) (h : t.val = 0) :
    acc m c t.val t.isLt = (k0_pay6 (xb m c t) (mb m c t) (k0_pay1 (F := F)), k0_pay7 (xb m c t) (mb m c t) (k0_pay2 (F := F)), k0_pay8 (mb m c t) (k0_pay3 (F := F))) := by
  obtain ⟨n, hn⟩ := t
  dsimp only at h; subst h; rfl

theorem acc_lt (c : Dev nD) (t : Fin cfg0.N) (h0 : t.val ≠ 0) (h : t.val < 64) :
    acc m c t.val t.isLt
      = (k0_pay6 (xb m c t) (mb m c t) (acc m c (t.val - 1) (Nat.lt_of_le_of_lt (Nat.sub_le _ _) t.isLt)).1,
         k0_pay7 (xb m c t) (mb m c t) (acc m c (t.val - 1) (Nat.lt_of_le_of_lt (Nat.sub_le _ _) t.isLt)).2.1,
         k0_pay8 (mb m c t) (acc m c (t.val - 1) (Nat.lt_of_le_of_lt (Nat.sub_le _ _) t.isLt)).2.2) := by
  obtain ⟨n, hn⟩ := t
  cases n with
  | zero => exact absurd rfl h0
  | succ n => exact (if_pos h).trans rfl

theorem acc_ge (c : Dev nD) (t : Fin cfg0.N) (h : 64 ≤ t.val) :
    acc m c t.val t.isLt = acc m c (t.val - 1) (Nat.lt_of_le_of_lt (Nat.sub_le _ _) t.isLt) := by
  obtain ⟨n, hn⟩ := t
  cases n with
  | zero => exact absurd h (by dsimp only; omega)
  | succ n => exact (if_neg (by dsimp only at h; omega)).trans rfl

/-- Point 64, the first of phase 1. -/
def t64 : Fin cfg0.N := ⟨64, lt_of_lt_of_eq (by decide : 64 < 128) (N_0).symm⟩

/-- The accumulators as phase 0 leaves them. -/
def accEnd (c : Dev nD) : Vec F S1x512 .f32 × Vec F S1x512 .f32 × Vec F S1x512 .f32 :=
  acc m c 63 (lt_of_lt_of_eq (by decide : 63 < 128) (N_0).symm)

/-- The two coefficient rows: a − 1 and b − μ·a. -/
def coefc (c : Dev nD) : Vec F S1x512 .f32 := k0_pay11 (accEnd m c).2.2 (accEnd m c).1 (accEnd m c).2.1 (gb m c t64)
def coefb (c : Dev nD) : Vec F S1x512 .f32 := k0_pay12 (accEnd m c).2.2 (accEnd m c).1 (accEnd m c).2.1 (gb m c t64) (bb m c t64)

/-- Row block `t` of the output as the body stores it. -/
def outb (c : Dev nD) (t : Fin cfg0.N) : Vec F S1024x512 .f32 := k0_pay13 (xb m c t) (mb m c t) (coefc m c) (coefb m c)

/-- From point 64 on the accumulators are what phase 0 left. -/
theorem acc_end (c : Dev nD) : ∀ (n : ℕ) (hn : n < cfg0.N), 63 ≤ n → acc m c n hn = accEnd m c := by
  intro n
  induction n with
  | zero => intro hn h; exact absurd h (by decide)
  | succ k ih =>
    intro hn h
    by_cases hk : k + 1 = 63
    · unfold accEnd; congr 1
    · have h64 : 64 ≤ k + 1 := by omega
      rw [show acc m c (k + 1) hn = acc m c k (Nat.lt_of_succ_lt hn) from (if_neg (by omega)).trans rfl]
      exact ih _ (by omega)

/-! ## The invariant between points -/

/-- The two coefficient rows between points: computed once point 64 has run, anything before. -/
def coefRes (c : Dev nD) (n : ℕ) : sProp 𝕄 :=
  if 64 ≤ n then iprop(owns (c : Thread nD τ) scC fullShare (coefc m c) ∗ owns (c : Thread nD τ) scB fullShare (coefb m c))
  else iprop((∃ d, owns (c : Thread nD τ) scC fullShare d) ∗ (∃ d, owns (c : Thread nD τ) scB fullShare d))

/-- Before position `n`: at the launch every scratch row holds anything; afterwards the accumulators hold what the point
    before left, the coefficient rows as `coefRes` says, and the generator register is at some state. -/
def PhiS (c : Dev nD) : (n : ℕ) → n ≤ cfg0.N → sProp 𝕄
  | 0, _ => Pipeline.ΦA spec0 c
  | n + 1, hn => iprop(iprop(owns (c : Thread nD τ) scS fullShare (acc m c n hn).1 ∗ owns (c : Thread nD τ) scQ fullShare (acc m c n hn).2.1 ∗ owns (c : Thread nD τ) scN fullShare (acc m c n hn).2.2 ∗ coefRes m c n) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scS fullShare (acc m c n hn).1 ∗ owns (c : Thread nD τ) scQ fullShare (acc m c n hn).2.1 ∗ owns (c : Thread nD τ) scN fullShare (acc m c n hn).2.2 ∗ coefRes m c n) ∗ (∃ r, prngReg c r)) := rfl

theorem PhiS_pos (c : Dev nD) (n : ℕ) (h : n ≤ cfg0.N) (hz : n ≠ 0) :
    PhiS m c n h = iprop(iprop(owns (c : Thread nD τ) scS fullShare (acc m c (n - 1) (by omega)).1 ∗ owns (c : Thread nD τ) scQ fullShare (acc m c (n - 1) (by omega)).2.1 ∗ owns (c : Thread nD τ) scN fullShare (acc m c (n - 1) (by omega)).2.2 ∗ coefRes m c (n - 1)) ∗ (∃ r, prngReg c r)) := by
  cases n with
  | zero => exact absurd rfl hz
  | succ n => rfl

theorem coefRes_lt (c : Dev nD) (n : ℕ) (h : n < 64) :
    coefRes m c n = iprop((∃ d, owns (c : Thread nD τ) scC fullShare d) ∗ (∃ d, owns (c : Thread nD τ) scB fullShare d)) := by
  unfold coefRes; rw [if_neg (by omega)]

theorem coefRes_ge (c : Dev nD) (n : ℕ) (h : 64 ≤ n) :
    coefRes m c n = iprop(owns (c : Thread nD τ) scC fullShare (coefc m c) ∗ owns (c : Thread nD τ) scB fullShare (coefb m c)) := by
  unfold coefRes; rw [if_pos h]

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outb m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outb m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
/-- Through phase 0 the output's buffer is handed back as it was found, -/
theorem leaves4_lt (c : Dev nD) (t : Fin cfg0.N) (h : t.val < 64) :
    (dats m 0 c).leavesExact 4 t = iprop(∃ d, owns (c : Thread nD τ) (ms4 t) fullShare ((dats m 0 c).before 4 t d)) :=
  (dats m 0 c).leavesExact_idle 4 t ((idle4_iff t).mpr h) (Bool.eq_false_iff.mpr fun hf => absurd ((flush4_iff t).mp hf) (by omega))
/-- and in phase 1 it holds this row block of the output. -/
theorem leaves4_ge (c : Dev nD) (t : Fin cfg0.N) (h : 64 ≤ t.val) :
    (dats m 0 c).leavesExact 4 t = owns (c : Thread nD τ) (ms4 t) fullShare (outb m c t) := by
  unfold Dat.leavesExact
  rw [show cfg0.idle 4 (cfg0.grid.coords t) = false from Bool.eq_false_iff.mpr fun hi => absurd ((idle4_iff t).mp hi) (by omega), after4]

set_option maxHeartbeats 12800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  have hN : t.val < 128 := lt_of_lt_of_eq t.isLt (show cfg0.N = 128 from N_0)
  by_cases hz : t.val = 0
  · -- the first point
    rw [leaves4_lt m c t (by omega), acc_zero m c t hz, coefRes_lt m c _ (by omega)]
    rw [PhiS_castSucc m c t, PhiS_zero m c _ _ hz, PhiA_eq]
    iintro ⟨⟨⟨HS0, HS1, HS2, HS3, HS4⟩, Hg⟩, Ho, ⟨%d0, H0⟩, ⟨%d1, H1⟩, ⟨%d2, H2⟩, ⟨%d3, H3⟩, ⟨%d4, H4⟩⟩
    iapply ((runA c (grid0.coords t) _ _ _ _ _ _ _ _ _ _ _ _ _ _ _ _ _ _ _ _ ((condInit_iff t).mpr hz) ((condAcc_iff t).mpr (by omega)) (fun h => absurd ((condFin_iff t).mp h) (by omega)) (fun h => absurd ((condApply_iff t).mp h) (by omega)) (iblk m c 0 t) (iblk m c 1 t) (iblk m c 2 t) (iblk m c 3 t) ((dats m 0 c).before 4 t d4)).2.2.2 Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    isplitl [HS4]; · iexact HS4
    iintro ⟨H0, H1, H2, H3, H4, ⟨%es0, HS0⟩, ⟨%es1, HS1⟩, ⟨%es2, HS2⟩, HS3, HS4⟩
    isplitl [HS0 HS1 HS2 HS3 HS4 Hg]
    · isplitl [HS0 HS1 HS2 HS3 HS4]
      · isplitl [HS0]
        · unfold owns; iexists _; isplitr
          swap; · iexact HS0
          ipureintro; exact (View.read_writes_eq_canon _ _ _ (coverA0 c _ _ _ _ _ _ _ _ _ _ _ _ _ _ _ _ _ _ _ _ _ _ _ _ _ _ _ _ _ _)).trans (canonA0 c _ _ _ _ _ _ _ _ _ _ _ _ _ _ _ _ _ _ _ _ _ _ _ _ _ _ _ _ _ _)
        isplitl [HS1]
        · unfold owns; iexists _; isplitr
          swap; · iexact HS1
          ipureintro; exact (View.read_writes_eq_canon _ _ _ (coverA1 c _ _ _ _ _ _ _ _ _ _ _ _ _ _ _ _ _ _ _ _ _ _ _ _ _ _ _ _ _ _)).trans (canonA1 c _ _ _ _ _ _ _ _ _ _ _ _ _ _ _ _ _ _ _ _ _ _ _ _ _ _ _ _ _ _)
        isplitl [HS2]
        · unfold owns; iexists _; isplitr
          swap; · iexact HS2
          ipureintro; exact (View.read_writes_eq_canon _ _ _ (coverA2 c _ _ _ _ _ _ _ _ _ _ _ _ _ _ _ _ _ _ _ _ _ _ _ _ _ _ _ _ _ _)).trans (canonA2 c _ _ _ _ _ _ _ _ _ _ _ _ _ _ _ _ _ _ _ _ _ _ _ _ _ _ _ _ _ _)
        isplitl [HS3]; · iexact HS3
        iexact HS4
      iexact Hg
    isplitl [Ho]; · iexact Ho
    isplitl [H0]; · iexact H0
    isplitl [H1]; · iexact H1
    isplitl [H2]; · iexact H2
    isplitl [H3]; · iexact H3
    iexists _; iexact H4
  · by_cases hlt : t.val < 64
    · -- a later point of phase 0
      rw [leaves4_lt m c t hlt, acc_lt m c t hz hlt, coefRes_lt m c _ hlt]
      rw [PhiS_castSucc m c t, PhiS_pos m c _ _ hz, coefRes_lt m c _ (by omega)]
      iintro ⟨⟨⟨HS0, HS1, HS2, HS3, HS4⟩, Hg⟩, Ho, ⟨%d0, H0⟩, ⟨%d1, H1⟩, ⟨%d2, H2⟩, ⟨%d3, H3⟩, ⟨%d4, H4⟩⟩
      iapply ((runB c (grid0.coords t) _ _ _ _ _ _ _ _ _ _ _ _ _ _ _ _ _ _ _ _ (fun h => hz ((condInit_iff t).mp h)) ((condAcc_iff t).mpr hlt) (fun h => absurd ((condFin_iff t).mp h) (by omega)) (fun h => absurd ((condApply_iff t).mp h) (by omega)) (iblk m c 0 t) (iblk m c 1 t) (iblk m c 2 t) (iblk m c 3 t) ((dats m 0 c).before 4 t d4) _ _ _).2.2.2 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      isplitl [HS4]; · iexact HS4
      iintro ⟨H0, H1, H2, H3, H4, ⟨%es0, HS0⟩, ⟨%es1, HS1⟩, ⟨%es2, HS2⟩, HS3, HS4⟩
      isplitl [HS0 HS1 HS2 HS3 HS4 Hg]
      · isplitl [HS0 HS1 HS2 HS3 HS4]
        · isplitl [HS0]
          · unfold owns; iexists _; isplitr
            swap; · iexact HS0
            ipureintro; exact (View.read_writes_eq_canon _ _ _ (coverB0 c _ _ _ _ _ _ _ _ _ _ _ _ _ _ _ _ _ _ _ _ _ _ _ _ _ _ _ _ _ _ _ _ _)).trans (canonB0 c _ _ _ _ _ _ _ _ _ _ _ _ _ _ _ _ _ _ _ _ _ _ _ _ _ _ _ _ _ _ _ _ _)
          isplitl [HS1]
          · unfold owns; iexists _; isplitr
            swap; · iexact HS1
            ipureintro; exact (View.read_writes_eq_canon _ _ _ (coverB1 c _ _ _ _ _ _ _ _ _ _ _ _ _ _ _ _ _ _ _ _ _ _ _ _ _ _ _ _ _ _ _ _ _)).trans (canonB1 c _ _ _ _ _ _ _ _ _ _ _ _ _ _ _ _ _ _ _ _ _ _ _ _ _ _ _ _ _ _ _ _ _)
          isplitl [HS2]
          · unfold owns; iexists _; isplitr
            swap; · iexact HS2
            ipureintro; exact (View.read_writes_eq_canon _ _ _ (coverB2 c _ _ _ _ _ _ _ _ _ _ _ _ _ _ _ _ _ _ _ _ _ _ _ _ _ _ _ _ _ _ _ _ _)).trans (canonB2 c _ _ _ _ _ _ _ _ _ _ _ _ _ _ _ _ _ _ _ _ _ _ _ _ _ _ _ _ _ _ _ _ _)
          isplitl [HS3]; · iexact HS3
          iexact HS4
        iexact Hg
      isplitl [Ho]; · iexact Ho
      isplitl [H0]; · iexact H0
      isplitl [H1]; · iexact H1
      isplitl [H2]; · iexact H2
      isplitl [H3]; · iexact H3
      iexists _; iexact H4
    · have hge : 64 ≤ t.val := by omega
      rw [leaves4_ge m c t hge, acc_ge m c t hge, coefRes_ge m c _ hge]
      rw [PhiS_castSucc m c t, PhiS_pos m c _ _ hz]
      by_cases h64 : t.val = 64
      · -- the first point of phase 1
        rw [coefRes_lt m c _ (by omega)]
        have hacc : acc m c (t.val - 1) (Nat.lt_of_le_of_lt (Nat.sub_le _ _) t.isLt) = accEnd m c := acc_end m c _ _ (by omega)
        have ht : t = t64 := Fin.ext h64
        iintro ⟨⟨⟨HS0, HS1, HS2, HS3, HS4⟩, Hg⟩, Ho, ⟨%d0, H0⟩, ⟨%d1, H1⟩, ⟨%d2, H2⟩, ⟨%d3, H3⟩, ⟨%d4, H4⟩⟩
        iapply ((runC c (grid0.coords t) _ _ _ _ _ _ _ _ _ _ _ _ _ _ _ _ _ _ _ _ (fun h => hz ((condInit_iff t).mp h)) (fun h => hlt ((condAcc_iff t).mp h)) ((condFin_iff t).mpr h64) ((condApply_iff t).mpr hge) (iblk m c 0 t) (iblk m c 1 t) (iblk m c 2 t) (iblk m c 3 t) _ _ _).2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        isplitl [HS3]; · iexact HS3
        isplitl [HS4]; · iexact HS4
        iintro ⟨H0, H1, H2, H3, ⟨%eo, H4⟩, HS0, HS1, HS2, ⟨%es3, HS3⟩, ⟨%es4, HS4⟩⟩
        isplitl [HS0 HS1 HS2 HS3 HS4 Hg]
        · isplitl [HS0 HS1 HS2 HS3 HS4]
          · isplitl [HS0]; · iexact HS0
            isplitl [HS1]; · iexact HS1
            isplitl [HS2]; · iexact HS2
            isplitl [HS3]
            · unfold owns; iexists _; isplitr
              swap; · iexact HS3
              ipureintro
              refine (View.read_writes_eq_canon _ _ _ (coverC3 c _ _ _ _ _ _ _ _ _ _ _ _ _ _ _ _ _ _ _ _ _ _ _ _ _ _ _ _ _ _ _ _)).trans ((canonC3 c _ _ _ _ _ _ _ _ _ _ _ _ _ _ _ _ _ _ _ _ _ _ _ _ _ _ _ _ _ _ _ _).trans ?_)
              unfold coefc gb; rw [hacc, ht]
            unfold owns; iexists _; isplitr
            swap; · iexact HS4
            ipureintro
            refine (View.read_writes_eq_canon _ _ _ (coverC4 c _ _ _ _ _ _ _ _ _ _ _ _ _ _ _ _ _ _ _ _ _ _ _ _ _ _ _ _ _ _ _ _)).trans ((canonC4 c _ _ _ _ _ _ _ _ _ _ _ _ _ _ _ _ _ _ _ _ _ _ _ _ _ _ _ _ _ _ _ _).trans ?_)
            unfold coefb gb bb; rw [hacc, ht]
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro
        refine (View.read_writes_eq_canon _ _ _ (coverCO c _ _ _ _ _ _ _ _ _ _ _ _ _ _ _ _ _ _ _ _ _ _ _ _ _ _ _ _ _ _ _ _)).trans ((canonCO c _ _ _ _ _ _ _ _ _ _ _ _ _ _ _ _ _ _ _ _ _ _ _ _ _ _ _ _ _ _ _ _).trans ?_)
        unfold outb coefc coefb xb mb gb bb; rw [hacc, ht]
      · -- a later point of phase 1
        rw [coefRes_ge m c _ (by omega)]
        iintro ⟨⟨⟨HS0, HS1, HS2, HS3, HS4⟩, Hg⟩, Ho, ⟨%d0, H0⟩, ⟨%d1, H1⟩, ⟨%d2, H2⟩, ⟨%d3, H3⟩, ⟨%d4, H4⟩⟩
        iapply ((runD c (grid0.coords t) _ _ _ _ _ _ _ _ _ _ _ _ _ _ _ _ _ _ _ _ (fun h => hz ((condInit_iff t).mp h)) (fun h => hlt ((condAcc_iff t).mp h)) (fun h => h64 ((condFin_iff t).mp h)) ((condApply_iff t).mpr hge) (iblk m c 0 t) (iblk m c 1 t) (iblk m c 2 t) (iblk m c 3 t) _ _ _ _ _).2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        isplitl [HS3]; · iexact HS3
        isplitl [HS4]; · iexact HS4
        iintro ⟨H0, H1, H2, H3, ⟨%eo, H4⟩, HS0, HS1, HS2, HS3, HS4⟩
        isplitl [HS0 HS1 HS2 HS3 HS4 Hg]
        · isplitl [HS0 HS1 HS2 HS3 HS4]
          · isplitl [HS0]; · iexact HS0
            isplitl [HS1]; · iexact HS1
            isplitl [HS2]; · iexact HS2
            isplitl [HS3]; · iexact HS3
            iexact HS4
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro
        exact (View.read_writes_eq_canon _ _ _ (coverDO c _ _ _ _ _ _ _ _ _ _ _ _ _ _ _ _ _ _ _ _ _ _ _ _ _ _ _ _ _ _ _ _ _ _)).trans (canonDO c _ _ _ _ _ _ _ _ _ _ _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch rows back at some contents. -/
theorem hout (c : Dev nD) : (dats m 0 c).Φ (Fin.last cfg0.N) ⊢ Pipeline.ΦA spec0 c := by
  have hN : cfg0.N = 128 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), coefRes_ge m c _ (by rw [Fin.val_last]; omega), PhiA_eq]
  iintro ⟨⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

/-! ## The run and the frame -/

set_option maxHeartbeats 4000000 in
set_option backward.isDefEq.respectTransparency.types false in
/-- Every weakly fair execution of @main terminates; each windowed array ends at what the write-backs of the proof data
    make of it, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same run with the output array named and the four argument arrays read off: the input window's array and the
    arrays no window stages are as launched. -/
theorem run_blocks : θ_run defs (onTc (τ := τ) (main (F := F))) ⟨m, fun _ => 0, ρ⟩ (fun r => ∀ c : Dev nD,
      r.2.mem ((c.tc : Thread nD τ).loc main_v4) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1 4,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.MaskedNorm.lean ====
/-
  Masked batch normalisation of one column, on the extended reals.

  A column `x : ι → EReal` of finite numbers, a mask `w : ι → BitVec 1` read as the weights 0 and 1, a scale
  `g`, a shift `b` and a positive `eps`.  With C the number of masked rows, S = Σ x·w and Q = Σ (x·w)·x,
    one program takes  μ = S / C,  v = Q / C − μ·μ,  a = rsqrt (v + eps)·g  and answers  x + (x·(a − 1) + (b − μ·a))·w;
    the other takes    μ = S / C,  v' = (Σ (x − μ)·(x − μ)·w) / C           and answers  (x − μ)·rsqrt (v' + eps)·g + b
  on a masked row and x itself on an unmasked one.
  On an unmasked row the first answer is x + (…)·0 = x + 0 = x whatever the bracket holds (0·⊤ = 0 on the extended
  reals), so nothing need be known of C.  On a masked row C ≥ 1, every quantity is a real number,
  v = v' is the identity  Σ(x − μ)²w / C = Q / C − μ²  (expand the square, Σ x·w = μ·C, Σ w = C),  v' ≥ 0 makes
  v' + eps > 0 so that rsqrt is a real, and the two answers differ by a ring identity.
-/
import Idealize.ShloMosaic.PureOps.Ideal
import Idealize.ShloMosaic.PureOps.Ideal.Laws
import Idealize.ShloMosaic.Lib.ValueIdx

noncomputable section

namespace Cert.MaskedNorm

open Idealize.ShloMosaic

variable {ι : Type} [Fintype ι]

/-- A mask bit as a weight: 0 or 1. -/
def wt (b : BitVec 1) : EReal := ((b.toNat : ℝ) : EReal)

/-- Σ x·w, Σ (x·w)·x and Σ w over the column. -/
def sumS (x : ι → EReal) (w : ι → BitVec 1) : EReal := ∑ r, x r * wt (w r)
def sumQ (x : ι → EReal) (w : ι → BitVec 1) : EReal := ∑ r, (x r * wt (w r)) * x r
def sumC (w : ι → BitVec 1) : EReal := ∑ r, wt (w r)

/-- The two coefficients of the fused form: a − 1 and b − μ·a. -/
def coefC (eps : EReal) (x : ι → EReal) (w : ι → BitVec 1) (g : EReal) : EReal :=
  Ideal.rsqrt (Ideal.div (sumQ x w) (sumC w) - Ideal.div (sumS x w) (sumC w) * Ideal.div (sumS x w) (sumC w) + eps) * g - 1
def coefB (eps : EReal) (x : ι → EReal) (w : ι → BitVec 1) (g b : EReal) : EReal :=
  b - Ideal.div (sumS x w) (sumC w)
    * (Ideal.rsqrt (Ideal.div (sumQ x w) (sumC w) - Ideal.div (sumS x w) (sumC w) * Ideal.div (sumS x w) (sumC w) + eps) * g)

/-- The fused form's answer at row `R`. -/
def fused (eps : EReal) (x : ι → EReal) (w : ι → BitVec 1) (g b : EReal) (R : ι) : EReal :=
  x R + (x R * coefC eps x w g + coefB eps x w g b) * wt (w R)

/-- The textbook form's answer at row `R`. -/
def textbook (eps : EReal) (x : ι → EReal) (w : ι → BitVec 1) (g b : EReal) (R : ι) : EReal :=
  Scalar.select (w R)
    (((x R - Ideal.div (sumS x w) (sumC w))
        * Ideal.rsqrt (Ideal.div (∑ r, ((x r - Ideal.div (sumS x w) (sumC w)) * (x r - Ideal.div (sumS x w) (sumC w))) * wt (w r)) (sumC w) + eps))
      * g + b)
    (x R)

/-! ### Real weights and sums of coerced reals -/

/-- The real number under `wt`. -/
def wtR (b : BitVec 1) : ℝ := (b.toNat : ℝ)

theorem wt_eq (b : BitVec 1) : wt b = ((wtR b : ℝ) : EReal) := rfl

theorem wtR_nonneg (b : BitVec 1) : 0 ≤ wtR b := Nat.cast_nonneg _

theorem wtR_one : wtR 1#1 = 1 := by simp [wtR]

theorem wt_zero : wt 0#1 = 0 := by simp [wt]

theorem wt_one : wt 1#1 = ((1 : ℝ) : EReal) := by rw [wt_eq, wtR_one]

/-- A finite sum of coerced reals is the coercion of the real sum. -/
theorem coe_sum {α : Type} (s : Finset α) (f : α → ℝ) :
    (∑ r ∈ s, ((f r : ℝ) : EReal)) = ((∑ r ∈ s, f r : ℝ) : EReal) := by
  classical
  induction s using Finset.induction_on with
  | empty => simp
  | insert a s ha ih => rw [Finset.sum_insert ha, Finset.sum_insert ha, ih, EReal.coe_add]

theorem sumS_coe (xr : ι → ℝ) (w : ι → BitVec 1) :
    sumS (fun r => ((xr r : ℝ) : EReal)) w = ((∑ r, xr r * wtR (w r) : ℝ) : EReal) := by
  unfold sumS
  simp only [wt_eq, ← EReal.coe_mul]
  exact coe_sum _ _

theorem sumQ_coe (xr : ι → ℝ) (w : ι → BitVec 1) :
    sumQ (fun r => ((xr r : ℝ) : EReal)) w = ((∑ r, (xr r * wtR (w r)) * xr r : ℝ) : EReal) := by
  unfold sumQ
  simp only [wt_eq, ← EReal.coe_mul]
  exact coe_sum _ _

theorem sumC_coe (w : ι → BitVec 1) :
    sumC w = ((∑ r, wtR (w r) : ℝ) : EReal) := by
  unfold sumC
  simp only [wt_eq]
  exact coe_sum _ _

/-- The weighted sum of squared deviations from `m`, coerced. -/
theorem sumDev_coe (xr : ι → ℝ) (w : ι → BitVec 1) (m : ℝ) :
    (∑ r, ((((xr r : ℝ) : EReal) - ((m : ℝ) : EReal)) * (((xr r : ℝ) : EReal) - ((m : ℝ) : EReal))) * wt (w r))
      = ((∑ r, ((xr r - m) * (xr r - m)) * wtR (w r) : ℝ) : EReal) := by
  simp only [wt_eq, ← EReal.coe_sub, ← EReal.coe_mul]
  exact coe_sum _ _

/-! ### The variance identity on the reals -/

/-- Expanding the square: Σ (x − m)²·w = Σ x·w·x − 2·m·Σ x·w + m²·Σ w. -/
theorem sum_sq_dev (xr wr : ι → ℝ) (m : ℝ) :
    ∑ r, ((xr r - m) * (xr r - m)) * wr r
      = (∑ r, (xr r * wr r) * xr r) - 2 * m * (∑ r, xr r * wr r) + m * m * ∑ r, wr r := by
  rw [Finset.mul_sum, Finset.mul_sum, ← Finset.sum_sub_distrib, ← Finset.sum_add_distrib]
  exact Finset.sum_congr rfl (fun r _ => by ring)

/-- With m = S / C the mean of the squared deviations is Q / C − m². -/
theorem var_identity (S Q C : ℝ) (hC : C ≠ 0) :
    (Q - 2 * (S * (1 / C)) * S + (S * (1 / C)) * (S * (1 / C)) * C) * (1 / C)
      = Q * (1 / C) - (S * (1 / C)) * (S * (1 / C)) := by
  field_simp
  ring

/-- The reciprocal square root of a positive real is a real. -/
theorem rsqrt_pos {t : ℝ} (h : 0 < t) :
    Ideal.rsqrt ((t : ℝ) : EReal) = (((Real.sqrt t)⁻¹ : ℝ) : EReal) := by
  rw [Ideal.rsqrt_coe, if_neg (not_lt.mpr h.le), if_neg h.ne']

/-! ### The two rows -/

/-- An unmasked row: both forms answer `x R`. -/
theorem unmasked_row (eps : EReal) (x : ι → EReal) (w : ι → BitVec 1) (g b : EReal) (R : ι)
    (hR : w R = 0#1) : fused eps x w g b R = textbook eps x w g b R := by
  unfold fused textbook
  rw [hR, wt_zero, mul_zero, add_zero, ValueIdx.select_zero]

/-- A masked row of real data. -/
theorem masked_row (e : ℝ) (he : 0 < e) (xr : ι → ℝ) (w : ι → BitVec 1) (gr br : ℝ) (R : ι)
    (hR : w R = 1#1) :
    fused ((e : ℝ) : EReal) (fun r => ((xr r : ℝ) : EReal)) w ((gr : ℝ) : EReal) ((br : ℝ) : EReal) R
      = textbook ((e : ℝ) : EReal) (fun r => ((xr r : ℝ) : EReal)) w ((gr : ℝ) : EReal) ((br : ℝ) : EReal) R := by
  -- the three real sums; the count is at least 1 because row R is counted
  have hC1 : (1 : ℝ) ≤ ∑ r, wtR (w r) := by
    have h := Finset.single_le_sum (f := fun r => wtR (w r)) (fun r _ => wtR_nonneg (w r))
      (Finset.mem_univ R)
    simpa [hR, wtR_one] using h
  have hC : (∑ r, wtR (w r)) ≠ 0 := by linarith
  have hCpos : 0 < 1 / (∑ r, wtR (w r)) := by positivity
  generalize hCd : (∑ r, wtR (w r)) = C at hC1 hC hCpos
  generalize hSd : (∑ r, xr r * wtR (w r)) = S
  generalize hQd : (∑ r, (xr r * wtR (w r)) * xr r) = Q
  -- the mean and the two second moments as reals
  have hμ : Ideal.div (sumS (fun r => ((xr r : ℝ) : EReal)) w) (sumC w) = ((S * (1 / C) : ℝ) : EReal) := by
    rw [sumS_coe, sumC_coe, hCd, hSd, Ideal.div_coe hC, ← EReal.coe_mul]
  have hq : Ideal.div (sumQ (fun r => ((xr r : ℝ) : EReal)) w) (sumC w) = ((Q * (1 / C) : ℝ) : EReal) := by
    rw [sumQ_coe, sumC_coe, hCd, hQd, Ideal.div_coe hC, ← EReal.coe_mul]
  -- the textbook variance equals the fused one and is nonnegative
  have hdev : (∑ r, ((xr r - S * (1 / C)) * (xr r - S * (1 / C))) * wtR (w r)) * (1 / C)
      = Q * (1 / C) - (S * (1 / C)) * (S * (1 / C)) := by
    rw [sum_sq_dev, hCd, hSd, hQd]
    exact var_identity S Q C hC
  have hnn : 0 ≤ (∑ r, ((xr r - S * (1 / C)) * (xr r - S * (1 / C))) * wtR (w r)) * (1 / C) :=
    mul_nonneg (Finset.sum_nonneg (fun r _ => mul_nonneg (mul_self_nonneg _) (wtR_nonneg _))) hCpos.le
  have hpos : 0 < Q * (1 / C) - (S * (1 / C)) * (S * (1 / C)) + e := by
    rw [← hdev]; linarith
  have hv' : Ideal.div (∑ r, ((((xr r : ℝ) : EReal) - ((S * (1 / C) : ℝ) : EReal))
        * (((xr r : ℝ) : EReal) - ((S * (1 / C) : ℝ) : EReal))) * wt (w r)) (sumC w)
      = ((Q * (1 / C) - (S * (1 / C)) * (S * (1 / C)) : ℝ) : EReal) := by
    rw [sumDev_coe, sumC_coe, hCd, Ideal.div_coe hC, ← EReal.coe_mul, hdev]
  -- both answers as coerced reals
  unfold fused textbook coefC coefB
  rw [hR, ValueIdx.select_one, wt_one]
  simp only [hμ, hq, hv']
  simp only [← EReal.coe_mul, ← EReal.coe_sub, ← EReal.coe_add]
  rw [rsqrt_pos hpos]
  simp only [← EReal.coe_mul, ← EReal.coe_sub, ← EReal.coe_add, ← EReal.coe_one]
  congr 1
  ring

/-- The two forms agree on finite data. -/
theorem fused_eq_textbook (eps : EReal) (heps : ∃ e : ℝ, 0 < e ∧ eps = (e : EReal))
    (x : ι → EReal) (hx : ∀ r, ∃ y : ℝ, x r = (y : EReal)) (w : ι → BitVec 1)
    (g b : EReal) (hg : ∃ y : ℝ, g = (y : EReal)) (hb : ∃ y : ℝ, b = (y : EReal)) (R : ι) :
    fused eps x w g b R = textbook eps x w g b R := by
  classical
  obtain ⟨e, he, rfl⟩ := heps
  obtain ⟨gr, rfl⟩ := hg
  obtain ⟨br, rfl⟩ := hb
  choose xr hxr using hx
  obtain rfl : x = fun r => ((xr r : ℝ) : EReal) := funext hxr
  rcases BitVec.eq_zero_or_eq_one (w R) with h0 | h1
  · exact unmasked_row _ _ w _ _ R h0
  · exact masked_row e he xr w gr br R h1

end Cert.MaskedNorm

end
-- ==== Proof.MaskedNormAt.lean ====
/-
  Masked batch normalisation of a 65536 × 512 array, column by column: the fused form and the textbook form at a row
  and a column, over the four argument arrays, and their agreement on finite data.
-/
import proofs.«177905_g2027224563999_cont_sun_m_333_2_alg».proof.Proof.MaskedNorm

noncomputable section

namespace Cert.MaskedNorm

open Idealize.ShloMosaic Idealize.ShloMosaic.ValueIdx

/-- The variance's offset, the single-precision number nearest 1e-5, as both programs spell it. -/
def eps32 : EReal := Ideal.ofBits .f32 0x3727C5AC#32

/-- The pattern has sign 0, exponent field 110 and fraction field 2606508: a normal number,
    (2^23 + 2606508) · 2^(110 − 127 − 23) = 10995116 · 2^(−40). -/
theorem eps32_val : eps32 = ((10995116 * (2 : ℝ) ^ (-40 : Int) : ℝ) : EReal) := by
  simp [eps32, Ideal.ofBits, Ideal.ieee, -EReal.coe_mul]

/-- It is a positive real. -/
theorem eps32_pos : ∃ e : ℝ, 0 < e ∧ eps32 = (e : EReal) :=
  ⟨10995116 * (2 : ℝ) ^ (-40 : Int), by positivity, eps32_val⟩

variable (x : (⟨2, ![65536, 512]⟩ : Shape).Idx → EReal) (w : (⟨1, ![65536]⟩ : Shape).Idx → BitVec 1)
  (g b : (⟨1, ![512]⟩ : Shape).Idx → EReal)

/-- Column `J` of the input and the mask as functions of the row. -/
abbrev col (J : Fin 512) : Fin 65536 → EReal := fun r => x (ix2 r J)
abbrev msk : Fin 65536 → BitVec 1 := fun r => w (ix1 r)

def fusedAt (R : Fin 65536) (J : Fin 512) : EReal := fused eps32 (col x J) (msk w) (g (ix1 J)) (b (ix1 J)) R
def textbookAt (R : Fin 65536) (J : Fin 512) : EReal := textbook eps32 (col x J) (msk w) (g (ix1 J)) (b (ix1 J)) R

theorem fusedAt_eq_textbookAt (hx : ∀ i, ∃ y : ℝ, x i = (y : EReal)) (hg : ∀ i, ∃ y : ℝ, g i = (y : EReal))
    (hb : ∀ i, ∃ y : ℝ, b i = (y : EReal)) (R : Fin 65536) (J : Fin 512) :
    fusedAt x w g b R J = textbookAt x w g b R J :=
  fused_eq_textbook eps32 eps32_pos (col x J) (fun r => hx _) (msk w) _ _ (hg _) (hb _) R

end Cert.MaskedNorm

end
-- ==== Proof.KV.Blocks.lean ====
/-
  The blocks the body reads, as elements of the four argument arrays: row r of the block at point t is row
  1024·(t mod 64) + r of the input and of the mask (read as a weight); the scale and shift rows are the whole vectors.
-/
import proofs.«177905_g2027224563999_cont_sun_m_333_2_alg».proof.Proof.KI.Data
import proofs.«177905_g2027224563999_cont_sun_m_333_2_alg».proof.Proof.MaskedNormAt
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KV

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body Cert.MaskedNorm

variable (m : (ℓ : Loc nD τ sig) → Buf (Elt Ideal) ℓ)

/-- The four argument arrays on core `c`. -/
abbrev X (c : Dev nD) : S65536x512.Idx → EReal := m ((c.tc : Thread nD τ).loc main_arg0)
abbrev W (c : Dev nD) : S65536.Idx → BitVec 1 := m ((c.tc : Thread nD τ).loc main_arg1)
abbrev Gm (c : Dev nD) : S512.Idx → EReal := m ((c.tc : Thread nD τ).loc main_arg2)
abbrev Bt (c : Dev nD) : S512.Idx → EReal := m ((c.tc : Thread nD τ).loc main_arg3)

/-- Row `r` of the block at point `t`, as a row of the array. -/
def rowOf (t : Fin cfg0.N) (r : Fin 1024) : Fin 65536 := ⟨1024 * (t.val % 64) + r.val, by have := r.isLt; omega⟩

/-- The printed index maps over the grid: the input's and the mask's block row is the point's second grid coordinate,
    t mod 64; every other block coordinate is 0. -/
theorem idx_facts : ∀ t : Fin cfg0.N, win0_0.index t (0 : Fin 2) = t.val % 64 ∧ win0_0.index t (1 : Fin 2) = 0
    ∧ win0_1.index t (0 : Fin 2) = t.val % 64 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

theorem xb_apply (c : Dev nD) (t : Fin cfg0.N) (r : Fin 1024) (j : Fin 512) :
    xb m c t (ix2 r j) = X m c (ix2 (rowOf t r) j) := by
  obtain ⟨e0, e1, -⟩ := idx_facts t
  show V m c main_arg0 (((cfg0.win 0).blk t).view.emb (ix2 r j)) = _
  rw [V_main_arg0]
  show m ((c.tc : Thread nD τ).loc main_arg0) (((cfg0.win 0).blk t).view.emb (ix2 r j)) = m ((c.tc : Thread nD τ).loc main_arg0) (ix2 (rowOf t r) j)
  congr 1
  funext a; apply Fin.ext
  match a with
  | ⟨0, _⟩ => show win0_0.index t (0 : Fin 2) * 1024 + 1 * r.val = 1024 * (t.val % 64) + r.val; omega
  | ⟨1, _⟩ => show win0_0.index t (1 : Fin 2) * 512 + 1 * j.val = j.val; omega

/-- The mask column as the region finds it, read at a row: the host converts the mask's bits to floats and reshapes the
    65536 entries to 65536 × 1, so entry (q, 0) is the weight of bit q. -/
theorem v1_apply (c : Dev nD) (q : Fin 65536) :
    (V m c main_v1 : S65536x1.Idx → EReal) (ix2 q (0 : Fin 1)) = wt (W m c (ix1 q)) := by
  have e : (V m c main_v1 : S65536x1.Idx → EReal)
      = shapeCast S65536x1 (uitofp (F := Ideal) .f32 (W m c)) Gen.shapeCasts_S65536_S65536x1 := by
    dsimp only [Gen.V, Gen.hostOps0]; after_results; rfl
  rw [e]
  exact shapeCast_apply _ _ (ix2 q (0 : Fin 1)) (ix1 q) (by
    rw [Shape.rowMajor_val_one, Shape.rowMajor_val_two]; show q.val = q.val * 1 + 0; omega)

/-- The scale row as the region finds it: the scale vector reshaped from 512 to 1 × 512, so entry (0, j) is entry j. -/
theorem v2_apply (c : Dev nD) (j : Fin 512) :
    (V m c main_v2 : S1x512.Idx → EReal) (ix2 (0 : Fin 1) j) = Gm m c (ix1 j) := by
  have e : (V m c main_v2 : S1x512.Idx → EReal) = shapeCast S1x512 (Gm m c) Gen.shapeCasts_S512_S1x512 := by
    dsimp only [Gen.V, Gen.hostOps0]; after_results; rfl
  rw [e]
  exact shapeCast_apply _ _ (ix2 (0 : Fin 1) j) (ix1 j) (by
    rw [Shape.rowMajor_val_one, Shape.rowMajor_val_two]; show j.val = 0 * 512 + j.val; omega)

/-- The shift row as the region finds it: the shift vector reshaped from 512 to 1 × 512. -/
theorem v3_apply (c : Dev nD) (j : Fin 512) :
    (V m c main_v3 : S1x512.Idx → EReal) (ix2 (0 : Fin 1) j) = Bt m c (ix1 j) := by
  have e : (V m c main_v3 : S1x512.Idx → EReal) = shapeCast S1x512 (Bt m c) Gen.shapeCasts_S512_S1x512 := by
    dsimp only [Gen.V, Gen.hostOps0]; after_results; rfl
  rw [e]
  exact shapeCast_apply _ _ (ix2 (0 : Fin 1) j) (ix1 j) (by
    rw [Shape.rowMajor_val_one, Shape.rowMajor_val_two]; show j.val = 0 * 512 + j.val; omega)

theorem mb_apply (c : Dev nD) (t : Fin cfg0.N) (r : Fin 1024) :
    mb m c t (ix2 r (0 : Fin 1)) = wt (W m c (ix1 (rowOf t r))) := by
  obtain ⟨-, -, e0, e1, -⟩ := idx_facts t
  refine Eq.trans ?_ (v1_apply m c (rowOf t r))
  show V m c main_v1 (((cfg0.win 1).blk t).view.emb (ix2 r (0 : Fin 1))) = V m c main_v1 (ix2 (rowOf t r) (0 : Fin 1))
  congr 1
  funext a; apply Fin.ext
  match a with
  | ⟨0, _⟩ => show win0_1.index t (0 : Fin 2) * 1024 + 1 * r.val = 1024 * (t.val % 64) + r.val; omega
  | ⟨1, _⟩ => show win0_1.index t (1 : Fin 2) * 1 + 1 * 0 = 0; omega

theorem gb_apply (c : Dev nD) (t : Fin cfg0.N) (j : Fin 512) :
    gb m c t (ix2 (0 : Fin 1) j) = Gm m c (ix1 j) := by
  obtain ⟨-, -, -, -, e0, e1, -⟩ := idx_facts t
  refine Eq.trans ?_ (v2_apply m c j)
  show V m c main_v2 (((cfg0.win 2).blk t).view.emb (ix2 (0 : Fin 1) j)) = V m c main_v2 (ix2 (0 : Fin 1) j)
  congr 1
  funext a; apply Fin.ext
  match a with
  | ⟨0, _⟩ => show win0_2.index t (0 : Fin 2) * 1 + 1 * 0 = 0; omega
  | ⟨1, _⟩ => show win0_2.index t (1 : Fin 2) * 512 + 1 * j.val = j.val; omega

theorem bb_apply (c : Dev nD) (t : Fin cfg0.N) (j : Fin 512) :
    bb m c t (ix2 (0 : Fin 1) j) = Bt m c (ix1 j) := by
  obtain ⟨-, -, -, -, -, -, e0, e1⟩ := idx_facts t
  refine Eq.trans ?_ (v3_apply m c j)
  show V m c main_v3 (((cfg0.win 3).blk t).view.emb (ix2 (0 : Fin 1) j)) = V m c main_v3 (ix2 (0 : Fin 1) j)
  congr 1
  funext a; apply Fin.ext
  match a with
  | ⟨0, _⟩ => show win0_3.index t (0 : Fin 2) * 1 + 1 * 0 = 0; omega
  | ⟨1, _⟩ => show win0_3.index t (1 : Fin 2) * 512 + 1 * j.val = j.val; omega

end Cert.KernelIdeal.KV

end
-- ==== Proof.KV.Payloads.lean ====
/-
  The body's arithmetic read at one element, on the extended reals: a column sum over the 1024 rows of a block added to
  the accumulator row, the two coefficient rows from the accumulators, and the affine map of one output element.
-/
import proofs.«177905_g2027224563999_cont_sun_m_333_2_alg».proof.Proof.Gen.KernelIdeal.Skeleton
import proofs.«177905_g2027224563999_cont_sun_m_333_2_alg».proof.Proof.MaskedNormAt
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

namespace Cert.KernelIdeal.KV

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.MaskedNorm

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the rows of a `[1024, 512]` block, as a `[1, 512]` row read at lane `j`. -/
theorem colsum_apply (v : FVec Ideal S1024x512 .f32) (j : Fin 512) :
    shapeCast S1x512 (multiReduction .add [0] S512 v 0x00000000#32 reduces_S1024x512_S512 (.inl rfl) rfl)
        shapeCasts_S512_S1x512 (ix2 (0 : Fin 1) j)
      = ∑ r : Fin 1024, v (ix2 r j) := by
  refine (shapeCast_a_1a_apply _ shapeCasts_S512_S1x512 (0 : Fin 1) j).trans ?_
  refine (Ideal.multiReduction_add_single (φ := .f32) v _ reduces_S1024x512_S512 (.inl rfl) rfl (ix1 j)).trans ?_
  refine Finset.sum_congr rfl fun k _ => ?_
  exact congrArg v (funext fun a => Fin.ext (by match a with | ⟨0, _⟩ => rfl | ⟨1, _⟩ => rfl))

/-- The zero rows the first point stores into the accumulators. -/
theorem pay1_apply (j : Fin 512) : k0_pay1 (F := Ideal) (ix2 (0 : Fin 1) j) = 0 := by
  unfold k0_pay1
  rw [shapeCast_self]
  exact Ideal.ofBits_zero_f32
theorem pay2_apply (j : Fin 512) : k0_pay2 (F := Ideal) (ix2 (0 : Fin 1) j) = 0 := by
  unfold k0_pay2
  rw [shapeCast_self]
  exact Ideal.ofBits_zero_f32
theorem pay3_apply (j : Fin 512) : k0_pay3 (F := Ideal) (ix2 (0 : Fin 1) j) = 0 := by
  unfold k0_pay3
  rw [shapeCast_self]
  exact Ideal.ofBits_zero_f32

/-- The mask column spread over the lanes reads the column's entry of the row. -/
theorem pay4_apply (x1 : Vec Ideal S1024x1 .f32) (r : Fin 1024) (j : Fin 512) :
    k0_pay4 x1 (ix2 r j) = x1 (ix2 r (0 : Fin 1)) := by
  unfold k0_pay4
  rw [shapeCast_self, shapeCast_self, broadcastTo_a1_ab_apply]

/-- x·m at one element. -/
theorem pay5_apply (x0 : Vec Ideal S1024x512 .f32) (x1 : Vec Ideal S1024x1 .f32) (r : Fin 1024) (j : Fin 512) :
    k0_pay5 x0 x1 (ix2 r j) = x0 (ix2 r j) * x1 (ix2 r (0 : Fin 1)) := by
  unfold k0_pay5
  rw [mulf_apply, pay4_apply]

/-- Σ x·m over the block's rows, added to the running sum. -/
theorem pay6_apply (x0 : Vec Ideal S1024x512 .f32) (x1 : Vec Ideal S1024x1 .f32) (s : Vec Ideal S1x512 .f32) (j : Fin 512) :
    k0_pay6 x0 x1 s (ix2 (0 : Fin 1) j) = s (ix2 (0 : Fin 1) j) + ∑ r : Fin 1024, x0 (ix2 r j) * x1 (ix2 r (0 : Fin 1)) := by
  unfold k0_pay6
  rw [shapeCast_self, addf_apply, colsum_apply]
  refine congrArg (_ + ·) (Finset.sum_congr rfl fun r _ => ?_)
  exact pay5_apply x0 x1 r j
/-- Σ (x·m)·x over the block's rows, added to the running sum. -/
theorem pay7_apply (x0 : Vec Ideal S1024x512 .f32) (x1 : Vec Ideal S1024x1 .f32) (s : Vec Ideal S1x512 .f32) (j : Fin 512) :
    k0_pay7 x0 x1 s (ix2 (0 : Fin 1) j) = s (ix2 (0 : Fin 1) j) + ∑ r : Fin 1024, (x0 (ix2 r j) * x1 (ix2 r (0 : Fin 1))) * x0 (ix2 r j) := by
  unfold k0_pay7
  rw [shapeCast_self, addf_apply, colsum_apply]
  refine congrArg (_ + ·) (Finset.sum_congr rfl fun r _ => ?_)
  rw [mulf_apply, pay5_apply]
/-- Σ m over the block's rows, added to the running count. -/
theorem pay8_apply (x1 : Vec Ideal S1024x1 .f32) (s : Vec Ideal S1x512 .f32) (j : Fin 512) :
    k0_pay8 x1 s (ix2 (0 : Fin 1) j) = s (ix2 (0 : Fin 1) j) + ∑ r : Fin 1024, x1 (ix2 r (0 : Fin 1)) := by
  unfold k0_pay8
  rw [shapeCast_self, addf_apply, colsum_apply]
  refine congrArg (_ + ·) (Finset.sum_congr rfl fun r _ => ?_)
  exact pay4_apply x1 r j

/-- The mean S/C at one lane. -/
theorem pay9_apply (cnt sm : Vec Ideal S1x512 .f32) (i : S1x512.Idx) :
    k0_pay9 cnt sm i = Ideal.div (sm i) (cnt i) := by
  unfold k0_pay9
  rfl

/-- a = rsqrt (Q/C − (S/C)·(S/C) + eps)·g at one lane. -/
theorem pay10_apply (cnt sm sq g : Vec Ideal S1x512 .f32) (i : S1x512.Idx) :
    k0_pay10 cnt sm sq g i
      = Ideal.rsqrt (Ideal.div (sq i) (cnt i) - Ideal.div (sm i) (cnt i) * Ideal.div (sm i) (cnt i) + eps32) * g i := by
  unfold k0_pay10
  rw [shapeCast_self, mulf_apply]
  refine congrArg (· * g i) ?_
  show Ideal.rsqrt (Ideal.div (sq i) (cnt i) - k0_pay9 cnt sm i * k0_pay9 cnt sm i + Ideal.ofBits .f32 0x3727C5AC#32) = _
  rw [pay9_apply]
  rfl

/-- a − 1 with a = rsqrt (Q/C − (S/C)·(S/C) + eps)·g, from the count row, the sum row, the sum-of-squares row and the scale row. -/
theorem pay11_apply (cnt sm sq g : Vec Ideal S1x512 .f32) (j : Fin 512) :
    k0_pay11 cnt sm sq g (ix2 (0 : Fin 1) j)
      = Ideal.rsqrt (Ideal.div (sq (ix2 (0 : Fin 1) j)) (cnt (ix2 (0 : Fin 1) j))
            - Ideal.div (sm (ix2 (0 : Fin 1) j)) (cnt (ix2 (0 : Fin 1) j)) * Ideal.div (sm (ix2 (0 : Fin 1) j)) (cnt (ix2 (0 : Fin 1) j)) + eps32)
          * g (ix2 (0 : Fin 1) j) - 1 := by
  unfold k0_pay11
  rw [shapeCast_self, subf_apply, pay10_apply, broadcast_apply]
  exact congrArg (_ - ·) Ideal.ofBits_one_f32
/-- b − μ·a. -/
theorem pay12_apply (cnt sm sq g b : Vec Ideal S1x512 .f32) (j : Fin 512) :
    k0_pay12 cnt sm sq g b (ix2 (0 : Fin 1) j)
      = b (ix2 (0 : Fin 1) j) - Ideal.div (sm (ix2 (0 : Fin 1) j)) (cnt (ix2 (0 : Fin 1) j))
          * (Ideal.rsqrt (Ideal.div (sq (ix2 (0 : Fin 1) j)) (cnt (ix2 (0 : Fin 1) j))
              - Ideal.div (sm (ix2 (0 : Fin 1) j)) (cnt (ix2 (0 : Fin 1) j)) * Ideal.div (sm (ix2 (0 : Fin 1) j)) (cnt (ix2 (0 : Fin 1) j)) + eps32)
            * g (ix2 (0 : Fin 1) j)) := by
  unfold k0_pay12
  rw [shapeCast_self, shapeCast_self, subf_apply, mulf_apply, pay9_apply, pay10_apply]

/-- x + (x·c + b)·m. -/
theorem pay13_apply (x0 : Vec Ideal S1024x512 .f32) (x1 : Vec Ideal S1024x1 .f32) (cc cb : Vec Ideal S1x512 .f32) (r : Fin 1024) (j : Fin 512) :
    k0_pay13 x0 x1 cc cb (ix2 r j)
      = x0 (ix2 r j) + (x0 (ix2 r j) * cc (ix2 (0 : Fin 1) j) + cb (ix2 (0 : Fin 1) j)) * x1 (ix2 r (0 : Fin 1)) := by
  unfold k0_pay13
  rw [shapeCast_self]
  simp only [addf_apply, mulf_apply]
  rw [broadcastTo_1b_ab_apply, broadcastTo_1b_ab_apply, broadcastTo_a1_ab_apply]

end Cert.KernelIdeal.KV

end
-- ==== Proof.KV.Acc.lean ====
/-
  The accumulators after phase 0 are the column's three sums over all 65536 rows, the coefficient rows are the fused
  form's two coefficients, and every stored output element is the fused form's answer.
-/
import proofs.«177905_g2027224563999_cont_sun_m_333_2_alg».proof.Proof.KV.Blocks
import proofs.«177905_g2027224563999_cont_sun_m_333_2_alg».proof.Proof.KV.Payloads

set_option maxRecDepth 16384

noncomputable section

namespace Cert.KernelIdeal.KV

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body Cert.MaskedNorm

/-! ## Sums over the first rows of a column -/

/-- A function of the row, continued by zero past the last row. -/
def ext0 (f : Fin 65536 → EReal) (k : ℕ) : EReal := if h : k < 65536 then f ⟨k, h⟩ else 0

theorem ext0_lt (f : Fin 65536 → EReal) (k : ℕ) (h : k < 65536) : ext0 f k = f ⟨k, h⟩ := dif_pos h

/-- The sum of `f` over the first `N` rows. -/
def psum (f : Fin 65536 → EReal) (N : ℕ) : EReal := ∑ k ∈ Finset.range N, ext0 f k

/-- Over no rows the sum is zero. -/
theorem psum_zero (f : Fin 65536 → EReal) : psum f (1024 * 0) = 0 := Finset.sum_range_zero _

/-- One more block of 1024 rows adds that block's sum. -/
theorem psum_block (f : Fin 65536 → EReal) (n : ℕ) (hn : n < 64) :
    psum f (1024 * (n + 1))
      = psum f (1024 * n) + ∑ r : Fin 1024, f ⟨1024 * n + r.val, by have := r.isLt; omega⟩ := by
  unfold psum
  rw [show 1024 * (n + 1) = 1024 * n + 1024 by omega, Finset.sum_range_add]
  refine congrArg (_ + ·) ?_
  rw [← Fin.sum_univ_eq_sum_range (fun x => ext0 f (1024 * n + x)) 1024]
  exact Finset.sum_congr rfl fun r _ => ext0_lt f _ _

/-- Over all 65536 rows it is the sum over the column. -/
theorem psum_all (f : Fin 65536 → EReal) : psum f (1024 * (63 + 1)) = ∑ R : Fin 65536, f R := by
  unfold psum
  rw [show 1024 * (63 + 1) = 65536 by norm_num, ← Fin.sum_univ_eq_sum_range (ext0 f) 65536]
  exact Finset.sum_congr rfl fun R _ => ext0_lt f R.val R.isLt

variable (m : (ℓ : Loc nD τ sig) → Buf (Elt Ideal) ℓ)

/-! ## One block's contribution -/

/-- Through phase 0 row `r` of the block at point `t` is row 1024·t + r of the array. -/
theorem rowOf_lt (t : Fin cfg0.N) (h : t.val < 64) (r : Fin 1024) :
    rowOf t r = ⟨1024 * t.val + r.val, by have := r.isLt; omega⟩ := by
  apply Fin.ext
  show 1024 * (t.val % 64) + r.val = 1024 * t.val + r.val
  rw [Nat.mod_eq_of_lt h]

/-- The block at point `t` adds Σ x·w over its rows to the row `s`. -/
theorem blockS (c : Dev nD) (t : Fin cfg0.N) (h : t.val < 64) (s : Vec Ideal S1x512 .f32) (j : Fin 512) :
    k0_pay6 (xb m c t) (mb m c t) s (ix2 (0 : Fin 1) j)
      = s (ix2 (0 : Fin 1) j) + ∑ r : Fin 1024, (fun R : Fin 65536 => X m c (ix2 R j) * wt (W m c (ix1 R)))
          ⟨1024 * t.val + r.val, by have := r.isLt; omega⟩ := by
  rw [pay6_apply]
  refine congrArg (_ + ·) (Finset.sum_congr rfl fun r _ => ?_)
  rw [xb_apply, mb_apply, rowOf_lt t h r]

/-- The block at point `t` adds Σ (x·w)·x over its rows to the row `s`. -/
theorem blockQ (c : Dev nD) (t : Fin cfg0.N) (h : t.val < 64) (s : Vec Ideal S1x512 .f32) (j : Fin 512) :
    k0_pay7 (xb m c t) (mb m c t) s (ix2 (0 : Fin 1) j)
      = s (ix2 (0 : Fin 1) j) + ∑ r : Fin 1024, (fun R : Fin 65536 => (X m c (ix2 R j) * wt (W m c (ix1 R))) * X m c (ix2 R j))
          ⟨1024 * t.val + r.val, by have := r.isLt; omega⟩ := by
  rw [pay7_apply]
  refine congrArg (_ + ·) (Finset.sum_congr rfl fun r _ => ?_)
  rw [xb_apply, mb_apply, rowOf_lt t h r]

/-- The block at point `t` adds Σ w over its rows to the row `s`. -/
theorem blockC (c : Dev nD) (t : Fin cfg0.N) (h : t.val < 64) (s : Vec Ideal S1x512 .f32) (j : Fin 512) :
    k0_pay8 (mb m c t) s (ix2 (0 : Fin 1) j)
      = s (ix2 (0 : Fin 1) j) + ∑ r : Fin 1024, (fun R : Fin 65536 => wt (W m c (ix1 R)))
          ⟨1024 * t.val + r.val, by have := r.isLt; omega⟩ := by
  rw [pay8_apply]
  refine congrArg (_ + ·) (Finset.sum_congr rfl fun r _ => ?_)
  rw [mb_apply, rowOf_lt t h r]

/-! ## The accumulators through phase 0 -/

/-- A point of phase 0 after the first adds its block to what the point before left. -/
theorem acc_succ (c : Dev nD) (k : ℕ) (hn : k + 1 < cfg0.N) (h : k + 1 < 64) :
    acc m c (k + 1) hn
      = (k0_pay6 (xb m c ⟨k + 1, hn⟩) (mb m c ⟨k + 1, hn⟩) (acc m c k (Nat.lt_of_succ_lt hn)).1,
         k0_pay7 (xb m c ⟨k + 1, hn⟩) (mb m c ⟨k + 1, hn⟩) (acc m c k (Nat.lt_of_succ_lt hn)).2.1,
         k0_pay8 (mb m c ⟨k + 1, hn⟩) (acc m c k (Nat.lt_of_succ_lt hn)).2.2) :=
  acc_lt m c ⟨k + 1, hn⟩ (Nat.succ_ne_zero k) h

/-- After point `n` of phase 0 the three rows hold, at lane `j`, the sums of x·w, (x·w)·x and w over the first
    1024·(n + 1) rows of column `j`. -/
theorem acc_inv (c : Dev nD) (j : Fin 512) : ∀ (n : ℕ) (hn : n < cfg0.N), n < 64 →
    (acc m c n hn).1 (ix2 (0 : Fin 1) j)
        = psum (fun R : Fin 65536 => X m c (ix2 R j) * wt (W m c (ix1 R))) (1024 * (n + 1))
      ∧ (acc m c n hn).2.1 (ix2 (0 : Fin 1) j)
        = psum (fun R : Fin 65536 => (X m c (ix2 R j) * wt (W m c (ix1 R))) * X m c (ix2 R j)) (1024 * (n + 1))
      ∧ (acc m c n hn).2.2 (ix2 (0 : Fin 1) j)
        = psum (fun R : Fin 65536 => wt (W m c (ix1 R))) (1024 * (n + 1)) := by
  intro n
  induction n with
  | zero =>
    intro hn _
    rw [acc_zero m c ⟨0, hn⟩ rfl]
    dsimp only
    refine ⟨?_, ?_, ?_⟩
    · refine (blockS m c ⟨0, hn⟩ (show (0 : ℕ) < 64 by decide) _ j).trans ?_
      rw [pay1_apply, ← psum_zero (fun R : Fin 65536 => X m c (ix2 R j) * wt (W m c (ix1 R)))]
      exact (psum_block _ 0 (by decide)).symm
    · refine (blockQ m c ⟨0, hn⟩ (show (0 : ℕ) < 64 by decide) _ j).trans ?_
      rw [pay2_apply, ← psum_zero (fun R : Fin 65536 => (X m c (ix2 R j) * wt (W m c (ix1 R))) * X m c (ix2 R j))]
      exact (psum_block _ 0 (by decide)).symm
    · refine (blockC m c ⟨0, hn⟩ (show (0 : ℕ) < 64 by decide) _ j).trans ?_
      rw [pay3_apply, ← psum_zero (fun R : Fin 65536 => wt (W m c (ix1 R)))]
      exact (psum_block _ 0 (by decide)).symm
  | succ k ih =>
    intro hn h
    obtain ⟨iS, iQ, iC⟩ := ih (Nat.lt_of_succ_lt hn) (by omega)
    rw [acc_succ m c k hn h]
    dsimp only
    refine ⟨?_, ?_, ?_⟩
    · refine (blockS m c ⟨k + 1, hn⟩ h _ j).trans ?_
      rw [iS]
      exact (psum_block _ (k + 1) h).symm
    · refine (blockQ m c ⟨k + 1, hn⟩ h _ j).trans ?_
      rw [iQ]
      exact (psum_block _ (k + 1) h).symm
    · refine (blockC m c ⟨k + 1, hn⟩ h _ j).trans ?_
      rw [iC]
      exact (psum_block _ (k + 1) h).symm

/-! ## What phase 0 leaves, the coefficients, and the output -/

theorem accEnd_S (c : Dev nD) (j : Fin 512) :
    (accEnd m c).1 (ix2 (0 : Fin 1) j) = sumS (col (X m c) j) (msk (W m c)) := by
  unfold accEnd
  refine (acc_inv m c j 63 _ (by decide)).1.trans ?_
  exact psum_all _
theorem accEnd_Q (c : Dev nD) (j : Fin 512) :
    (accEnd m c).2.1 (ix2 (0 : Fin 1) j) = sumQ (col (X m c) j) (msk (W m c)) := by
  unfold accEnd
  refine (acc_inv m c j 63 _ (by decide)).2.1.trans ?_
  exact psum_all _
theorem accEnd_C (c : Dev nD) (j : Fin 512) :
    (accEnd m c).2.2 (ix2 (0 : Fin 1) j) = sumC (msk (W m c)) := by
  unfold accEnd
  refine (acc_inv m c j 63 _ (by decide)).2.2.trans ?_
  exact psum_all _

theorem coefc_apply (c : Dev nD) (j : Fin 512) :
    coefc m c (ix2 (0 : Fin 1) j) = coefC eps32 (col (X m c) j) (msk (W m c)) (Gm m c (ix1 j)) := by
  unfold coefc
  rw [pay11_apply, accEnd_S, accEnd_Q, accEnd_C, gb_apply]
  rfl
theorem coefb_apply (c : Dev nD) (j : Fin 512) :
    coefb m c (ix2 (0 : Fin 1) j) = coefB eps32 (col (X m c) j) (msk (W m c)) (Gm m c (ix1 j)) (Bt m c (ix1 j)) := by
  unfold coefb
  rw [pay12_apply, accEnd_S, accEnd_Q, accEnd_C, gb_apply, bb_apply]
  rfl

theorem outb_apply (c : Dev nD) (t : Fin cfg0.N) (r : Fin 1024) (j : Fin 512) :
    outb m c t (ix2 r j) = fusedAt (X m c) (W m c) (Gm m c) (Bt m c) (rowOf t r) j := by
  unfold outb
  rw [pay13_apply, xb_apply, mb_apply, coefc_apply, coefb_apply]
  rfl

end Cert.KernelIdeal.KV

end
-- ==== Proof.KV.Final.lean ====
/-
  The output array after the run: block i is written back once, at point 64 + i, so every element of the array is
  the fused form's answer at its row and column.
-/
import proofs.«177905_g2027224563999_cont_sun_m_333_2_alg».proof.Proof.KV.Acc

set_option maxRecDepth 16384

noncomputable section

namespace Cert.KernelIdeal.KV

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body Cert.MaskedNorm

variable (m : (ℓ : Loc nD τ sig) → Buf (Elt Ideal) ℓ)

/-- The whole output as one function of the argument arrays. -/
def result (c : Dev nD) : S65536x512.Idx → EReal :=
  fun i => fusedAt (X m c) (W m c) (Gm m c) (Bt m c) ⟨(i 0).val, idx2_lt0 i⟩ ⟨(i 1).val, idx2_lt1 i⟩

theorem result_apply (c : Dev nD) (R : Fin 65536) (J : Fin 512) :
    result m c (ix2 R J) = fusedAt (X m c) (W m c) (Gm m c) (Bt m c) R J := rfl

/-- The output's index map over the grid: at point t = 64·p + i the block index is (p·i, 0). -/
theorem idx4 : ∀ t : Fin cfg0.N, win0_4.index t (0 : Fin 2) = (t.val / 64) * (t.val % 64)
    ∧ win0_4.index t (1 : Fin 2) = 0 :=
  (by decide +kernel : ∀ t : Fin grid0.N, _)

/-- Where element (r, j) of the block at a point of phase 1 sits in the array: row 1024·i + r, column j. -/
theorem emb4 (t : Fin cfg0.N) (h : 64 ≤ t.val) (r : Fin 1024) (j : Fin 512) :
    ((cfg0.win 4).blk t).view.emb (ix2 r j) = ix2 (rowOf t r) j := by
  have hN : t.val < 128 := lt_of_lt_of_eq t.isLt (show cfg0.N = 128 from N_0)
  obtain ⟨e0, e1⟩ := idx4 t
  have hp : t.val / 64 = 1 := by omega
  funext a; apply Fin.ext
  match a with
  | ⟨0, _⟩ => show win0_4.index t (0 : Fin 2) * 1024 + 1 * r.val = 1024 * (t.val % 64) + r.val; rw [e0, hp]; omega
  | ⟨1, _⟩ => show win0_4.index t (1 : Fin 2) * 512 + 1 * j.val = j.val; rw [e1]; omega

/-- What a point of phase 1 writes back is its block of `result`. -/
theorem flushed4_eq (c : Dev nD) (t : Fin cfg0.N) (hf : (cfg0.win 4).flush t = true) :
    (dats m 0 c).flushed 4 t = ((cfg0.win 4).blk t).view.read (Elt Ideal) (result m c) := by
  have h64 : 64 ≤ t.val := (flush4_iff t).mp hf
  show (cfg0.win 4).cut (grid0.coords t) ((dats m 0 c).after 4 t) = _
  rw [after4]
  funext y
  obtain ⟨r, j, rfl⟩ : ∃ (r : Fin 1024) (j : Fin 512), y = ix2 r j := ⟨y 0, y 1, eq_ix2 y⟩
  rw [View.read_apply]
  show outb m c t (ix2 r j) = result m c (((cfg0.win 4).blk t).view.emb (ix2 r j))
  rw [emb4 t h64 r j, result_apply, outb_apply]

/-- An index of the array is in point t's block iff each coordinate is in the block's range on its axis. -/
theorem mem_blk4 (t : Fin cfg0.N) (i : S65536x512.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v4).slice (win0_4.rect t)).set ↔ _
  rw [View.set_slice_whole, Rect.mem_set_unit]
  exact Iff.rfl

/-- Every index of the array is in the block written back at point 64 + (its row / 1024). -/
theorem cover4 (i : S65536x512.Idx) :
    ∃ t : Fin cfg0.N, (cfg0.win 4).flush t = true ∧ i ∈ ((cfg0.win 4).blk t).view.set := by
  have hi0 : (i 0).val < 65536 := (i 0).isLt
  have hi1 : (i 1).val < 512 := (i 1).isLt
  have hN : cfg0.N = 128 := N_0
  let t : Fin cfg0.N := ⟨64 + (i 0).val / 1024, by rw [hN]; omega⟩
  have ht : t.val = 64 + (i 0).val / 1024 := rfl
  obtain ⟨e0, e1⟩ := idx4 t
  have hp : t.val / 64 = 1 := by omega
  have hq : t.val % 64 = (i 0).val / 1024 := by omega
  refine ⟨t, (flush4_iff t).mpr (by omega), ?_⟩
  rw [mem_blk4]
  intro a
  match a with
  | ⟨0, _⟩ => show win0_4.index t (0 : Fin 2) * 1024 ≤ (i 0).val ∧ (i 0).val < win0_4.index t (0 : Fin 2) * 1024 + 1024; rw [e0, hp, hq]; omega
  | ⟨1, _⟩ => show win0_4.index t (1 : Fin 2) * 512 ≤ (i 1).val ∧ (i 1).val < win0_4.index t (1 : Fin 2) * 512 + 512; rw [e1]; omega

theorem final (c : Dev nD) : (dats m 0 c).arrAt 4 cfg0.N = result m c :=
  (dats m 0 c).arrAt_eq_of_cover 4 (result m c) (fun t hf => flushed4_eq m c t hf) cover4

end Cert.KernelIdeal.KV

end
-- ==== Proof.Ref.lean ====
/-
  The reference's result, read at an index, is the textbook form of masked batch normalisation.
-/
import proofs.«177905_g2027224563999_cont_sun_m_333_2_alg».proof.Proof.Gen.ReferenceIdeal.Run
import proofs.«177905_g2027224563999_cont_sun_m_333_2_alg».proof.Proof.Gen.ReferenceIdeal.Read
import proofs.«177905_g2027224563999_cont_sun_m_333_2_alg».proof.Proof.MaskedNormAt
import Idealize.ShloMosaic.Lib.ValueIdxRank1

noncomputable section

namespace Cert.ReferenceIdeal.RefValue

open Cert.ReferenceIdeal Cert.ReferenceIdeal.Gen Cert.ReferenceIdeal.Read Idealize.ShloMosaic Idealize.ShloMosaic.ValueIdx

/-! ### The layout operations' index maps, on indices given by their coordinates -/

theorem idx_v0 (r : Fin 65536) (z : Fin 1) : idx_main_v0 (ix2 r z) = ix1 r := by
  funext a; match a with | ⟨0, _⟩ => rfl
theorem idx_v4 (r : Fin 65536) (j : Fin 512) : idx_main_v4 (ix2 r j) = ix2 r (⟨0, Nat.one_pos⟩ : Fin 1) := by
  funext a; match a with | ⟨0, _⟩ => rfl | ⟨1, _⟩ => rfl
theorem idx_v6 (j : Fin 512) (k : Fin 65536) : idx_main_v6 (ix1 j) k = ix2 k j := by
  funext a; match a with | ⟨0, _⟩ => rfl | ⟨1, _⟩ => rfl

/-- The mask bit as a float is the weight 0 or 1. -/
theorem uitofp_eq (b : BitVec 1) : FloatOps.uitofp (F := Ideal) .f32 b = Cert.MaskedNorm.wt b := rfl

/-! ### The three sums and the two quotients -/

/-- The count: the sum of the mask's weights. -/
theorem count_eq (x1 : (⟨S65536, .i1⟩ : BufTy).Contents (Elt Ideal)) (i : S_.Idx) :
    val_main_v3 (F := Ideal) x1 i = Cert.MaskedNorm.sumC (Cert.MaskedNorm.msk x1) := by
  rw [val_main_v3_apply, val_main_cst_apply, Ideal.ofBits_def, Ideal.ofBits_zero_f32, zero_add]
  unfold Cert.MaskedNorm.sumC
  exact (Fintype.sum_equiv idxEquiv1.symm (fun r => Cert.MaskedNorm.wt (Cert.MaskedNorm.msk x1 r))
    (fun j => val_main_v2 (F := Ideal) x1 j)
    (fun r => by
      show Cert.MaskedNorm.wt (x1 (ix1 r)) = val_main_v2 (F := Ideal) x1 (ix1 r)
      rw [val_main_v2_apply, uitofp_eq])).symm

/-- The masked column sum. -/
theorem sumS_eq (x0 : (⟨S65536x512, .f32⟩ : BufTy).Contents (Elt Ideal)) (x1 : (⟨S65536, .i1⟩ : BufTy).Contents (Elt Ideal))
    (J : Fin 512) :
    val_main_v6 (F := Ideal) x0 x1 (ix1 J) = Cert.MaskedNorm.sumS (Cert.MaskedNorm.col x0 J) (Cert.MaskedNorm.msk x1) := by
  rw [val_main_v6_apply, val_main_cst_0_apply, Ideal.ofBits_def, Ideal.ofBits_zero_f32, zero_add]
  unfold Cert.MaskedNorm.sumS
  refine Finset.sum_congr rfl (fun k _ => ?_)
  rw [val_main_v5_apply, val_main_v4_apply, val_main_v1_apply, val_main_v0_apply, Ideal.mulf_def, idx_v6, idx_v4, idx_v0,
    uitofp_eq]

theorem idx_v9 (z : Fin 1) (j : Fin 512) : idx_main_v9 (ix2 z j) = ix1 j := by
  funext a; match a with | ⟨0, _⟩ => rfl
theorem idx_v10 (r : Fin 65536) (j : Fin 512) : idx_main_v10 (ix2 r j) = ix2 (⟨0, Nat.one_pos⟩ : Fin 1) j := by
  funext a; match a with | ⟨0, _⟩ => rfl | ⟨1, _⟩ => rfl
theorem idx_v13 (r : Fin 65536) (j : Fin 512) : idx_main_v13 (ix2 r j) = ix2 r (⟨0, Nat.one_pos⟩ : Fin 1) := by
  funext a; match a with | ⟨0, _⟩ => rfl | ⟨1, _⟩ => rfl
theorem idx_v15 (j : Fin 512) (k : Fin 65536) : idx_main_v15 (ix1 j) k = ix2 k j := by
  funext a; match a with | ⟨0, _⟩ => rfl | ⟨1, _⟩ => rfl
theorem idx_v18 (z : Fin 1) (j : Fin 512) : idx_main_v18 (ix2 z j) = ix1 j := by
  funext a; match a with | ⟨0, _⟩ => rfl
theorem idx_v19 (r : Fin 65536) (j : Fin 512) : idx_main_v19 (ix2 r j) = ix2 (⟨0, Nat.one_pos⟩ : Fin 1) j := by
  funext a; match a with | ⟨0, _⟩ => rfl | ⟨1, _⟩ => rfl
theorem idx_v24 (z : Fin 1) (j : Fin 512) : idx_main_v24 (ix2 z j) = ix1 j := by
  funext a; match a with | ⟨0, _⟩ => rfl
theorem idx_v25 (r : Fin 65536) (j : Fin 512) : idx_main_v25 (ix2 r j) = ix2 (⟨0, Nat.one_pos⟩ : Fin 1) j := by
  funext a; match a with | ⟨0, _⟩ => rfl | ⟨1, _⟩ => rfl
theorem idx_v27 (z : Fin 1) (j : Fin 512) : idx_main_v27 (ix2 z j) = ix1 j := by
  funext a; match a with | ⟨0, _⟩ => rfl
theorem idx_v28 (r : Fin 65536) (j : Fin 512) : idx_main_v28 (ix2 r j) = ix2 (⟨0, Nat.one_pos⟩ : Fin 1) j := by
  funext a; match a with | ⟨0, _⟩ => rfl | ⟨1, _⟩ => rfl
theorem idx_v30 (z : Fin 1) (j : Fin 512) : idx_main_v30 (ix2 z j) = ix1 j := by
  funext a; match a with | ⟨0, _⟩ => rfl
theorem idx_v31 (r : Fin 65536) (j : Fin 512) : idx_main_v31 (ix2 r j) = ix2 (⟨0, Nat.one_pos⟩ : Fin 1) j := by
  funext a; match a with | ⟨0, _⟩ => rfl | ⟨1, _⟩ => rfl
theorem idx_v33 (r : Fin 65536) (z : Fin 1) : idx_main_v33 (ix2 r z) = ix1 r := by
  funext a; match a with | ⟨0, _⟩ => rfl
theorem idx_call0_v0 (r : Fin 65536) (j : Fin 512) : idx_main_call0_v0 (ix2 r j) = ix2 r (⟨0, Nat.one_pos⟩ : Fin 1) := by
  funext a; match a with | ⟨0, _⟩ => rfl | ⟨1, _⟩ => rfl

/-- The column mean the reference divides out: Σ x·w over the count. -/
abbrev mean (x0 : (⟨S65536x512, .f32⟩ : BufTy).Contents (Elt Ideal)) (x1 : (⟨S65536, .i1⟩ : BufTy).Contents (Elt Ideal))
    (J : Fin 512) : EReal :=
  Ideal.div (Cert.MaskedNorm.sumS (Cert.MaskedNorm.col x0 J) (Cert.MaskedNorm.msk x1))
    (Cert.MaskedNorm.sumC (Cert.MaskedNorm.msk x1))

theorem mean_eq (x0 : (⟨S65536x512, .f32⟩ : BufTy).Contents (Elt Ideal)) (x1 : (⟨S65536, .i1⟩ : BufTy).Contents (Elt Ideal))
    (J : Fin 512) : val_main_v8 (F := Ideal) x0 x1 (ix1 J) = mean x0 x1 J := by
  rw [val_main_v8_apply, val_main_v7_apply, Ideal.hostDivf_def, sumS_eq, count_eq]

/-- The deviation from the mean, as the variance's summand reads it … -/
theorem dev11_eq (x0 : (⟨S65536x512, .f32⟩ : BufTy).Contents (Elt Ideal)) (x1 : (⟨S65536, .i1⟩ : BufTy).Contents (Elt Ideal))
    (r : Fin 65536) (J : Fin 512) :
    val_main_v11 (F := Ideal) x0 x1 (ix2 r J) = x0 (ix2 r J) - mean x0 x1 J := by
  rw [val_main_v11_apply, val_main_v10_apply, val_main_v9_apply, idx_v10, idx_v9, mean_eq, Ideal.subf_def]

/-- … and as the normalised value reads it. -/
theorem dev20_eq (x0 : (⟨S65536x512, .f32⟩ : BufTy).Contents (Elt Ideal)) (x1 : (⟨S65536, .i1⟩ : BufTy).Contents (Elt Ideal))
    (r : Fin 65536) (J : Fin 512) :
    val_main_v20 (F := Ideal) x0 x1 (ix2 r J) = x0 (ix2 r J) - mean x0 x1 J := by
  rw [val_main_v20_apply, val_main_v19_apply, val_main_v18_apply, idx_v19, idx_v18, mean_eq, Ideal.subf_def]

/-- The masked sum of squared deviations. -/
theorem sumDev_eq (x0 : (⟨S65536x512, .f32⟩ : BufTy).Contents (Elt Ideal)) (x1 : (⟨S65536, .i1⟩ : BufTy).Contents (Elt Ideal))
    (J : Fin 512) :
    val_main_v15 (F := Ideal) x0 x1 (ix1 J)
      = ∑ r : Fin 65536, ((x0 (ix2 r J) - mean x0 x1 J) * (x0 (ix2 r J) - mean x0 x1 J)) * Cert.MaskedNorm.wt (x1 (ix1 r)) := by
  rw [val_main_v15_apply, val_main_cst_1_apply, Ideal.ofBits_def, Ideal.ofBits_zero_f32, zero_add]
  refine Finset.sum_congr rfl (fun k _ => ?_)
  rw [val_main_v14_apply, val_main_v12_apply, val_main_v13_apply, val_main_v1_apply, val_main_v0_apply, idx_v15, dev11_eq,
    idx_v13, idx_v0, uitofp_eq]
  simp only [Ideal.mulf_def]

/-- The reciprocal standard deviation. -/
theorem rstd_eq (x0 : (⟨S65536x512, .f32⟩ : BufTy).Contents (Elt Ideal)) (x1 : (⟨S65536, .i1⟩ : BufTy).Contents (Elt Ideal))
    (J : Fin 512) :
    val_main_v23 (F := Ideal) x0 x1 (ix1 J)
      = Ideal.rsqrt (Ideal.div (∑ r : Fin 65536, ((x0 (ix2 r J) - mean x0 x1 J) * (x0 (ix2 r J) - mean x0 x1 J))
            * Cert.MaskedNorm.wt (x1 (ix1 r))) (Cert.MaskedNorm.sumC (Cert.MaskedNorm.msk x1)) + Cert.MaskedNorm.eps32) := by
  rw [val_main_v23_apply, val_main_v22_apply, val_main_v21_apply, val_main_cst_2_apply, val_main_v17_apply, val_main_v16_apply,
    Ideal.hostUnary_rsqrt_def, Ideal.addf_def, Ideal.hostDivf_def, Ideal.ofBits_def, sumDev_eq, count_eq]
  rfl

/-! ### The result -/

theorem ref_apply (x0 : (⟨S65536x512, .f32⟩ : BufTy).Contents (Elt Ideal)) (x1 : (⟨S65536, .i1⟩ : BufTy).Contents (Elt Ideal))
    (x2 x3 : (⟨S512, .f32⟩ : BufTy).Contents (Elt Ideal)) (R : Fin 65536) (J : Fin 512) :
    val_main_v34 (F := Ideal) x0 x1 x2 x3 (ix2 R J) = Cert.MaskedNorm.textbookAt x0 x1 x2 x3 R J := by
  rw [val_main_v34_apply, val_main_call0_v0_apply, val_main_v33_apply, idx_call0_v0, idx_v33,
    val_main_v32_apply, val_main_v31_apply, val_main_v30_apply, idx_v31, idx_v30,
    val_main_v29_apply, val_main_v28_apply, val_main_v27_apply, idx_v28, idx_v27,
    val_main_v26_apply, val_main_v25_apply, val_main_v24_apply, idx_v25, idx_v24, rstd_eq, dev20_eq]
  simp only [Ideal.addf_def, Ideal.mulf_def]
  unfold Cert.MaskedNorm.textbookAt Cert.MaskedNorm.textbook
  with_reducible rfl

end Cert.ReferenceIdeal.RefValue

end
-- ==== Proof.Finite.lean ====
/-
  The precondition read: every element of the input, of the scale and of the shift is a real number.  The predicate is the
  conjunction of three "all |v| < +∞" tests; on the extended reals |v| < ⊤ leaves exactly the reals and ⊥ is excluded
  because |⊥| = ⊤.
-/
import proofs.«177905_g2027224563999_cont_sun_m_333_2_alg».proof.Pre_finite_inputs
import proofs.«177905_g2027224563999_cont_sun_m_333_2_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Pre_finite_inputs.Finite

open Idealize.ShloMosaic Idealize.ShloMosaic.ValueIdx Cert.Pre_finite_inputs

/-- The word 0x7F800000 (sign 0, exponent all ones, fraction 0) denotes +∞. -/
theorem ofBits_inf : Ideal.ofBits .f32 0x7F800000#32 = (⊤ : EReal) := by
  simp [Ideal.ofBits, Ideal.ieee]

/-- One value: if |x| = max x (-x) compares strictly below +∞ then x is a real.  At ⊤ the maximum is ⊤, at ⊥ it is
    -⊥ = ⊤, and ⊤ < ⊤ is false; a real is its own witness. -/
theorem real_of_abs_lt_inf (x : EReal)
    (h : Ideal.cmp .olt (max x (-x)) (Ideal.ofBits .f32 0x7F800000#32) = 1#1) : ∃ y : ℝ, x = (y : EReal) := by
  rw [ofBits_inf] at h
  have hlt : max x (-x) < ⊤ := by
    by_contra hn
    simp [Ideal.cmp, hn] at h
  induction x using EReal.rec with
  | bot => simp at hlt
  | coe r => exact ⟨r, rfl⟩
  | top => simp at hlt

/-- The rank-0 shape has one index. -/
instance : Subsingleton S_.Idx := ⟨fun a b => funext fun d => d.elim0⟩

/-- The all-finite test of a vector of any shape: if the conjunction over all axes of "|v i| < +∞" is 1, every element of
    the vector is a real. -/
theorem reals_of_all {s : Shape} {axes : List (Fin s.rank)} (hb : S_.BroadcastsInDim s (![] : Fin 0 → Fin s.rank))
    (hr : s.ReducesTo axes S_) (hu : 0 < S_.numel) (v : FVec Ideal s .f32) (init : IVec S_ 1)
    (h : Host.reduce IntOp.andi
          (cmpf .olt (Host.absf v) (broadcastInDim s ![] hb (constant S_ .f32 0x7F800000#32))) init hr hu ix0 = 1#1) :
    ∀ i, ∃ y : ℝ, v i = (y : EReal) := by
  intro i
  have hi := Host.reduce_andi_all _ init hr hu ix0 h i
  exact real_of_abs_lt_inf (v i) hi

variable [Cert.Pre_finite_inputs.Facts]

theorem reals_of_pre (a0 : FVec Ideal S65536x512 .f32) (a1 : IVec S65536 1) (a2 a3 : FVec Ideal S512 .f32)
    (h : Cert.Pre_finite_inputs.fn (F := Ideal) a0 a1 a2 a3 = (fun _ => 1#1)) :
    (∀ i, ∃ y : ℝ, a0 i = (y : EReal)) ∧ (∀ i, ∃ y : ℝ, a2 i = (y : EReal)) ∧ (∀ i, ∃ y : ℝ, a3 i = (y : EReal)) := by
  have h0 := congrFun h ix0
  dsimp only [fn] at h0
  obtain ⟨h01, h3⟩ := IntOp.andi_eq_one.1 h0
  obtain ⟨h1, h2⟩ := IntOp.andi_eq_one.1 h01
  exact ⟨reals_of_all _ _ _ a0 _ h1, reals_of_all _ _ _ a2 _ h2, reals_of_all _ _ _ a3 _ h3⟩

end Cert.Pre_finite_inputs.Finite

end
-- ==== Proof.lean ====
/-
  Masked batch normalisation, fused against textbook: the certificate.

  The kernel makes two passes over the 64 row blocks of x (65536 × 512).  Pass 0 accumulates, per column, the sums S = Σ x·w,
  Q = Σ (x·w)·x and the count C = Σ w over the masked rows (w the mask as 0/1).  The first step of pass 1 turns them into
  a − 1 and b − μ·a with μ = S/C, a = rsqrt (Q/C − μ² + ε)·γ, and every step of pass 1 writes x + (x·(a − 1) + (b − μ·a))·w for
  its row block.  The reference normalises the masked rows by their mean μ and their variance Σ (x − μ)²·w / C and keeps
  the unmasked rows.

  On the extended reals both end with the same array: an unmasked element is x + (…)·0 = x on both sides, and on a
  masked row C ≥ 1 makes every quantity real, Q/C − μ² = Σ (x − μ)²·w / C, and the two affine forms agree (MaskedNorm.lean).
  The kernel's array is read off the pipeline's write-backs (KI/, KV/): the output's block index p·i first moves after
  point 64, so block i is written back exactly once, after point 64 + i stored it.  The reference is read one operation
  at a time (Ref.lean).  The three frames: the two kernel programs by the pipeline rule with the scratch rows' contents as
  the invariant between points (KI/Data.lean, K/Data.lean), the reference by its run.
-/
import proofs.«177905_g2027224563999_cont_sun_m_333_2_alg».proof.Defs
import proofs.«177905_g2027224563999_cont_sun_m_333_2_alg».proof.Proof.Gen.Kernel
import proofs.«177905_g2027224563999_cont_sun_m_333_2_alg».proof.Proof.Gen.KernelIdeal
import proofs.«177905_g2027224563999_cont_sun_m_333_2_alg».proof.Proof.Gen.ReferenceIdeal
import proofs.«177905_g2027224563999_cont_sun_m_333_2_alg».proof.Proof.Gen.Pre_finite_inputs
import proofs.«177905_g2027224563999_cont_sun_m_333_2_alg».proof.Proof.Gen.ReferenceIdeal.Run
import proofs.«177905_g2027224563999_cont_sun_m_333_2_alg».proof.Proof.Gen.ReferenceIdeal.Read
import proofs.«177905_g2027224563999_cont_sun_m_333_2_alg».proof.Proof.K.Data
import proofs.«177905_g2027224563999_cont_sun_m_333_2_alg».proof.Proof.KI.Data
import proofs.«177905_g2027224563999_cont_sun_m_333_2_alg».proof.Proof.KV.Final
import proofs.«177905_g2027224563999_cont_sun_m_333_2_alg».proof.Proof.Ref
import proofs.«177905_g2027224563999_cont_sun_m_333_2_alg».proof.Proof.Finite
import Idealize.ShloMosaic.Adequacy
import Idealize.ShloMosaic.Init

noncomputable section

namespace Cert.Proof

open Idealize.ShloMosaic Idealize.ShloMosaic.ValueIdx Idealize.SL.Sem

theorem frame_k : @Cert.frame_Kernel Cert.Kernel.Gen.facts Cert.Pre_finite_inputs.Gen.facts :=
  fun m ρ _ => Cert.Kernel.Body.frame m ρ

theorem frame_ki : @Cert.frame_KernelIdeal Cert.KernelIdeal.Gen.facts Cert.Pre_finite_inputs.Gen.facts :=
  fun m ρ _ => Cert.KernelIdeal.Body.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both programs end at the fused form's array: the kernel by its write-backs, the reference because on finite inputs
    its textbook form is the fused form, element by element. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.KV.result m c, ?_, ?_⟩
  · exact (θ_run Cert.KernelIdeal.defs _ _).mono (fun r h c => ⟨((h c).1).trans (Cert.KernelIdeal.KV.final m c), (h c).2⟩)
      (Cert.KernelIdeal.Body.run_blocks m ρ)
  · refine (θ_run Cert.ReferenceIdeal.defs _ _).mono (fun r h c => ⟨(h c).1.trans ?_, (h c).2⟩)
      (Cert.ReferenceIdeal.Value.run (F := Ideal) m' ρ')
    obtain ⟨hx, hg, hb⟩ := Cert.Pre_finite_inputs.Finite.reals_of_pre _ _ _ _ (hpre c)
    rw [Cert.ReferenceIdeal.Read.val_main_v34_eq, (hagree c).1, (hagree c).2.1, (hagree c).2.2.1, (hagree c).2.2.2]
    funext i
    obtain ⟨R, J, rfl⟩ : ∃ (R : Fin 65536) (J : Fin 512), i = ix2 R J := ⟨i 0, i 1, eq_ix2 i⟩
    rw [Cert.ReferenceIdeal.RefValue.ref_apply]
    exact (Cert.MaskedNorm.fusedAt_eq_textbookAt _ _ _ _ hx hg hb R J).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
